-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S128 : Shape := ⟨1, ![128]⟩
abbrev S200000x512 : Shape := ⟨2, ![200000, 512]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S200000x512 : S_.BroadcastsInDim S200000x512 (![] : Fin 0 → Fin S200000x512.rank)
  reducesTo_S200000x512_S_d0_1 : S200000x512.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S128x512 .f32) (main_arg1 : IVec S128 32) (main_arg2 : FVec F S200000x512 .f32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S200000x512 .f32 := Host.absf main_arg2
  let main_cst_0 : FVec F S_ .f32 := constant S_ .f32 0x7F800000#32
  let main_v5 : FVec F S200000x512 .f32 := broadcastInDim S200000x512 ![] bcast_S_S200000x512 main_cst_0
  let main_v6 : IVec S200000x512 1 := cmpf .olt main_v4 main_v5
  let main_c_1 : IVec S_ 1 := constantI S_ 1 1#1
  let main_v7 : IVec S_ 1 := (fun x v => Host.reduce IntOp.andi x v reducesTo_S200000x512_S_d0_1 h_S_) main_v6 main_c_1
  let main_v8 : IVec S_ 1 := andi main_v3 main_v7
  let main_c_2 : IVec S_ 32 := constantI S_ 32 0#32
  let main_v9 : IVec S128 32 := broadcastInDim S128 ![] bcast_S_S128 main_c_2
  let main_v10 : IVec S128 1 := cmpi .sge main_arg1 main_v9
  let main_c_3 : IVec S_ 1 := constantI S_ 1 1#1
  let main_v11 : IVec S_ 1 := (fun x v => Host.reduce IntOp.andi x v reducesTo_S128_S_d0 h_S_) main_v10 main_c_3
  let main_v12 : IVec S_ 1 := andi main_v8 main_v11
  main_v12
-- ==== Kernel.lean ====
abbrev S128x512 : Shape := ⟨2, ![128, 512]⟩
abbrev S128 : Shape := ⟨1, ![128]⟩
abbrev S200000x512 : Shape := ⟨2, ![200000, 512]⟩
abbrev S_ : Shape := ⟨0, ![]⟩
abbrev S128x1 : Shape := ⟨2, ![128, 1]⟩
abbrev S20000x1 : Shape := ⟨2, ![20000, 1]⟩
abbrev S2000x512 : Shape := ⟨2, ![2000, 512]⟩
abbrev S200x1 : Shape := ⟨2, ![200, 1]⟩
abbrev S2000 : Shape := ⟨1, ![2000]⟩
abbrev S2000x1 : Shape := ⟨2, ![2000, 1]⟩
abbrev S512x2000 : Shape := ⟨2, ![512, 2000]⟩
abbrev S128x2000 : Shape := ⟨2, ![128, 2000]⟩
abbrev S128x200x10 : Shape := ⟨3, ![128, 200, 10]⟩
abbrev S128x200 : Shape := ⟨2, ![128, 200]⟩
abbrev S1x200 : Shape := ⟨2, ![1, 200]⟩
abbrev S200 : Shape := ⟨1, ![200]⟩
abbrev S20000 : Shape := ⟨1, ![20000]⟩

abbrev nBuf : Space → Nat
  | .hbm => 50
  | .vmem => 8
  | .smem => 0
  | _ => 0

abbrev bufTy : (tb : Table) → Fin (tcTables nBuf tb) → BufTy
  | .hbm, ⟨0, _⟩ => ⟨S128x512, .f32⟩
  | .hbm, ⟨1, _⟩ => ⟨S128, .i32⟩
  | .hbm, ⟨2, _⟩ => ⟨S200000x512, .f32⟩
  | .hbm, ⟨3, _⟩ => ⟨S128x512, .f32⟩
  | .hbm, ⟨4, _⟩ => ⟨S_, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x1, .f32⟩
  | .hbm, ⟨11, _⟩ => ⟨S128x512, .f32⟩
  | .hbm, ⟨12, _⟩ => ⟨S128x512, .f32⟩
  | .hbm, ⟨13, _⟩ => ⟨S128x512, .bf16⟩
  | .hbm, ⟨14, _⟩ => ⟨S128x1, .i32⟩
  | .hbm, ⟨15, _⟩ => ⟨S20000x1, .f32⟩
  | .hbm, ⟨16, _⟩ => ⟨S20000x1, .f32⟩
  | .hbm, ⟨17, _⟩ => ⟨S20000, .f32⟩
  | .hbm, ⟨18, _⟩ => ⟨S20000, .f32⟩
  | .hbm, ⟨19, _⟩ => ⟨S_, .f32⟩
  | .hbm, ⟨20, _⟩ => ⟨S20000, .f32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S128, .i32⟩
  | .hbm, ⟨29, _⟩ => ⟨S128x1, .i32⟩
  | .hbm, ⟨30, _⟩ => ⟨S_, .f32⟩
  | .hbm, ⟨31, _⟩ => ⟨S128, .f32⟩
  | .hbm, ⟨32, _⟩ => ⟨S20000, .f32⟩
  | .hbm, ⟨33, _⟩ => ⟨S_, .f32⟩
  | .hbm, ⟨34, _⟩ => ⟨S20000, .f32⟩
  | .hbm, ⟨35, _⟩ => ⟨S20000, .i1⟩
  | .hbm, ⟨36, _⟩ => ⟨S20000, .i32⟩
  | .hbm, ⟨37, _⟩ => ⟨S_, .i32⟩
  | .hbm, ⟨38, _⟩ => ⟨S_, .i32⟩
  | .hbm, ⟨39, _⟩ => ⟨S_, .f32⟩
  | .hbm, ⟨40, _⟩ => ⟨S20000, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S20000, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S128x512, .bf16⟩
  | .local _ .vmem, ⟨1, _⟩ => ⟨S2000x512, .f32⟩
  | .local _ .vmem, ⟨2, _⟩ => ⟨S2000x512, .f32⟩
  | .local _ .vmem, ⟨3, _⟩ => ⟨S128x1, .i32⟩
  | .local _ .vmem, ⟨4, _⟩ => ⟨S200x1, .f32⟩
  | .local _ .vmem, ⟨5, _⟩ => ⟨S200x1, .f32⟩
  | .local _ .vmem, ⟨6, _⟩ => ⟨S200x1, .f32⟩
  | .local _ .vmem, ⟨7, _⟩ => ⟨S200x1, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S128x512_S128_d1 : S128x512.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  bitsLt_bf16_f32 : FTy.bits .bf16 < FTy.bits .f32
  shapeCasts_S128_S128x1 : S128.ShapeCasts S128x1
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  broadcasts_S2000x1_S2000x512 : S2000x1.Broadcasts S2000x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  transposes_S2000x512_p1_0_S512x2000 : S2000x512.Transposes [1, 0] S512x2000
  shapeCasts_S128x2000_S128x200x10 : S128x2000.ShapeCasts S128x200x10
  reduces_S128x200x10_S128x200 : S128x200x10.Reduces [2] S128x200
  iota_S1x200_d1_w32 : S1x200.Iotas .tc 32 [1]
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x200 : S128x1.Broadcasts S128x200
  broadcasts_S1x200_S128x200 : S1x200.Broadcasts S128x200
  natLt_1_32 : 1 < 32
  reduces_S128x200_S200 : S128x200.Reduces [0] S200
  shapeCasts_S200_S200x1 : S200.ShapeCasts S200x1
  inb_S200x1_S200x1_0_0 : ∀ a, (![0, 0] : Fin 2 → Nat) a + S200x1.size a ≤ S200x1.size a
  h_S200x1 : 0 < S200x1.numel
  shapeCasts_S20000x1_S20000 : S20000x1.ShapeCasts S20000
  bcast_S_S20000 : S_.BroadcastsInDim S20000 (![] : Fin 0 → Fin S20000.rank)
  shapeCasts_S128x1_S128 : S128x1.ShapeCasts S128
  reducesTo_S20000_S_d0 : S20000.ReducesTo [0] S_
  dot_S128x512_S512x2000_S128x2000_1_0_0_1_n_n_wf : DotDims.WF S128x512 S512x2000 S128x2000 [1] [0] [0] [1] [] []
  scatter_S20000_S128x1_S128_n_0_0_1_wf : ScatterDims.WF S20000 S128x1 S128 [] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x512.size a
  hwx0_0 : ∀ i : grid0.Coords, EltTy.bits .bf16 = 32 ∨ (Rect.block (s := S128x512) S128x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S200000x512.size a
  hwx0_1 : ∀ i : grid0.Coords, EltTy.bits .f32 = 32 ∨ (Rect.block (s := S200000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .i32 = 32 ∨ (Rect.block (s := S128x1) S128x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x1.size a ≤ S20000x1.size a
  hwx0_3 : ∀ i : grid0.Coords, EltTy.bits .f32 = 32 ∨ (Rect.block (s := S20000x1) S200x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x1.size a ≤ S20000x1.size a
  hwx0_4 : ∀ i : grid0.Coords, EltTy.bits .f32 = 32 ∨ (Rect.block (s := S20000x1) S200x1.size (cc0_transform_4 i) (hinb0_4 i)).WholeWords (EltTy.packing .f32)

variable [Facts₀]

def dot_S128x512_S512x2000_S128x2000_1_0_0_1_n_n : DotDims S128x512 S512x2000 S128x2000 where
  lhsContracting := [1]
  rhsContracting := [0]
  lhsNonContracting := [0]
  rhsNonContracting := [1]
  lhsBatch := []
  rhsBatch := []
  wf := dot_S128x512_S512x2000_S128x2000_1_0_0_1_n_n_wf
def scatter_S20000_S128x1_S128_n_0_0_1 : ScatterDims S20000 S128x1 S128 where
  updateWindowDims := []
  insertedWindowDims := [0]
  scatterDimsToOperandDims := [0]
  indexVectorDim := 1
  wf := scatter_S20000_S128x1_S128_n_0_0_1_wf

abbrev win0_0 : Pipeline.Window sig grid0 :=
  Pipeline.Window.ofSpec (Memref.whole main_v8) S128x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S200x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S200x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x512 : Shape := ⟨2, ![128, 512]⟩
abbrev S128 : Shape := ⟨1, ![128]⟩
abbrev S200000x512 : Shape := ⟨2, ![200000, 512]⟩
abbrev S_ : Shape := ⟨0, ![]⟩
abbrev S128x1 : Shape := ⟨2, ![128, 1]⟩
abbrev S200000 : Shape := ⟨1, ![200000]⟩
abbrev S200000x1 : Shape := ⟨2, ![200000, 1]⟩
abbrev S512x200000 : Shape := ⟨2, ![512, 200000]⟩
abbrev S128x200000 : Shape := ⟨2, ![128, 200000]⟩
abbrev S1x20000 : Shape := ⟨2, ![1, 20000]⟩
abbrev S128x20000 : Shape := ⟨2, ![128, 20000]⟩
abbrev S128x20000x10 : Shape := ⟨3, ![128, 20000, 10]⟩
abbrev S20000 : Shape := ⟨1, ![20000]⟩

abbrev nBuf : Space → Nat
  | .hbm => 79
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128, .i32⟩
  | .hbm, ⟨2, _⟩ => ⟨S200000x512, .f32⟩
  | .hbm, ⟨3, _⟩ => ⟨S128x512, .f32⟩
  | .hbm, ⟨4, _⟩ => ⟨S_, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x1, .f32⟩
  | .hbm, ⟨11, _⟩ => ⟨S128x512, .f32⟩
  | .hbm, ⟨12, _⟩ => ⟨S128x512, .f32⟩
  | .hbm, ⟨13, _⟩ => ⟨S200000x512, .f32⟩
  | .hbm, ⟨14, _⟩ => ⟨S_, .f32⟩
  | .hbm, ⟨15, _⟩ => ⟨S200000, .f32⟩
  | .hbm, ⟨16, _⟩ => ⟨S_, .f32⟩
  | .hbm, ⟨17, _⟩ => ⟨S200000, .f32⟩
  | .hbm, ⟨18, _⟩ => ⟨S200000, .f32⟩
  | .hbm, ⟨19, _⟩ => ⟨S200000, .f32⟩
  | .hbm, ⟨20, _⟩ => ⟨S200000x1, .f32⟩
  | .hbm, ⟨21, _⟩ => ⟨S200000x512, .f32⟩
  | .hbm, ⟨22, _⟩ => ⟨S200000x512, .f32⟩
  | .hbm, ⟨23, _⟩ => ⟨S512x200000, .f32⟩
  | .hbm, ⟨24, _⟩ => ⟨S128x200000, .f32⟩
  | .hbm, ⟨25, _⟩ => ⟨S128x1, .i32⟩
  | .hbm, ⟨26, _⟩ => ⟨S1x20000, .i32⟩
  | .hbm, ⟨27, _⟩ => ⟨S128x20000, .i32⟩
  | .hbm, ⟨28, _⟩ => ⟨S128x20000, .i32⟩
  | .hbm, ⟨29, _⟩ => ⟨S128x20000, .i1⟩
  | .hbm, ⟨30, _⟩ => ⟨S128x20000, .f32⟩
  | .hbm, ⟨31, _⟩ => ⟨S_, .f32⟩
  | .hbm, ⟨32, _⟩ => ⟨S128x20000, .f32⟩
  | .hbm, ⟨33, _⟩ => ⟨S128x20000, .f32⟩
  | .hbm, ⟨34, _⟩ => ⟨S_, .f32⟩
  | .hbm, ⟨35, _⟩ => ⟨S128x200000, .f32⟩
  | .hbm, ⟨36, _⟩ => ⟨S128x200000, .f32⟩
  | .hbm, ⟨37, _⟩ => ⟨S_, .f32⟩
  | .hbm, ⟨38, _⟩ => ⟨S128x200000, .f32⟩
  | .hbm, ⟨39, _⟩ => ⟨S128x200000, .f32⟩
  | .hbm, ⟨40, _⟩ => ⟨S128x200000, .f32⟩
  | .hbm, ⟨41, _⟩ => ⟨S128x20000x10, .f32⟩
  | .hbm, ⟨42, _⟩ => ⟨S_, .f32⟩
  | .hbm, ⟨43, _⟩ => ⟨S128x200000, .f32⟩
  | .hbm, ⟨44, _⟩ => ⟨S128x200000, .f32⟩
  | .hbm, ⟨45, _⟩ => ⟨S_, .f32⟩
  | .hbm, ⟨46, _⟩ => ⟨S128x200000, .f32⟩
  | .hbm, ⟨47, _⟩ => ⟨S128x200000, .f32⟩
  | .hbm, ⟨48, _⟩ => ⟨S128x200000, .f32⟩
  | .hbm, ⟨49, _⟩ => ⟨S128x20000x10, .f32⟩
  | .hbm, ⟨50, _⟩ => ⟨S_, .f32⟩
  | .hbm, ⟨51, _⟩ => ⟨S128x20000, .f32⟩
  | .hbm, ⟨52, _⟩ => ⟨S_, .f32⟩
  | .hbm, ⟨53, _⟩ => ⟨S128x20000, .f32⟩
  | .hbm, ⟨54, _⟩ => ⟨S128x20000, .f32⟩
  | .hbm, ⟨55, _⟩ => ⟨S_, .f32⟩
  | .hbm, ⟨56, _⟩ => ⟨S20000, .f32⟩
  | .hbm, ⟨57, _⟩ => ⟨S128x20000, .f32⟩
  | .hbm, ⟨58, _⟩ => ⟨S_, .f32⟩
  | .hbm, ⟨59, _⟩ => ⟨S20000, .f32⟩
  | .hbm, ⟨60, _⟩ => ⟨S_, .f32⟩
  | .hbm, ⟨61, _⟩ => ⟨S20000, .f32⟩
  | .hbm, ⟨62, _⟩ => ⟨S_, .f32⟩
  | .hbm, ⟨63, _⟩ => ⟨S20000, .f32⟩
  | .hbm, ⟨64, _⟩ => ⟨S20000, .i1⟩
  | .hbm, ⟨65, _⟩ => ⟨S20000, .i32⟩
  | .hbm, ⟨66, _⟩ => ⟨S_, .i32⟩
  | .hbm, ⟨67, _⟩ => ⟨S_, .i32⟩
  | .hbm, ⟨68, _⟩ => ⟨S_, .f32⟩
  | .hbm, ⟨69, _⟩ => ⟨S20000, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S20000, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_cst_11 : Ref sig .tc := ⟨.hbm, 58, rfl⟩
abbrev main_v38 : Ref sig .tc := ⟨.hbm, 59, rfl⟩
abbrev main_cst_12 : Ref sig .tc := ⟨.hbm, 60, rfl⟩
abbrev main_v39 : Ref sig .tc := ⟨.hbm, 61, rfl⟩
abbrev main_cst_13 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_14 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_15 : Ref sig .tc := ⟨.hbm, 74, rfl⟩
abbrev main_v49 : Ref sig .tc := ⟨.hbm, 75, rfl⟩
abbrev main_cst_16 : Ref sig .tc := ⟨.hbm, 76, rfl⟩
abbrev main_v50 : Ref sig .tc := ⟨.hbm, 77, rfl⟩
abbrev main_v51 : Ref sig .tc := ⟨.hbm, 78, rfl⟩

abbrev nD : Nat := 1
abbrev τ : Topo := Topo.v7x

variable {F : FTy → Type} [FloatOps F]

class Facts₀ : Prop where
  reducesTo_S128x512_S128_d1 : S128x512.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  reducesTo_S200000x512_S200000_d1 : S200000x512.ReducesTo [1] S200000
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x512_0_1 : S200000x1.BroadcastsInDim S200000x512 (![0, 1] : Fin 2 → Fin S200000x512.rank)
  transposes_S200000x512_S512x200000_1_0 : S200000x512.Transposes [1, 0] S512x200000
  bcast_S128x1_S128x20000_0_1 : S128x1.BroadcastsInDim S128x20000 (![0, 1] : Fin 2 → Fin S128x20000.rank)
  bcast_S1x20000_S128x20000_0_1 : S1x20000.BroadcastsInDim S128x20000 (![0, 1] : Fin 2 → Fin S128x20000.rank)
  bcast_S_S128x20000 : S_.BroadcastsInDim S128x20000 (![] : Fin 0 → Fin S128x20000.rank)
  bcast_S_S128x200000 : S_.BroadcastsInDim S128x200000 (![] : Fin 0 → Fin S128x200000.rank)
  shapeCasts_S128x200000_S128x20000x10 : S128x200000.ShapeCasts S128x20000x10
  reducesTo_S128x20000x10_S128x20000_d2 : S128x20000x10.ReducesTo [2] S128x20000
  reducesTo_S128x20000_S20000_d0 : S128x20000.ReducesTo [0] S20000
  bcast_S_S20000 : S_.BroadcastsInDim S20000 (![] : Fin 0 → Fin S20000.rank)
  natLt_1_32 : 1 < 32
  reducesTo_S20000_S_d0 : S20000.ReducesTo [0] S_
  dot_S128x512_S512x200000_S128x200000_1_0_0_1_n_n_wf : DotDims.WF S128x512 S512x200000 S128x200000 [1] [0] [0] [1] [] []

variable [Facts₀]

def dot_S128x512_S512x200000_S128x200000_1_0_0_1_n_n : DotDims S128x512 S512x200000 S128x200000 where
  lhsContracting := [1]
  rhsContracting := [0]
  lhsNonContracting := [0]
  rhsNonContracting := [1]
  lhsBatch := []
  rhsBatch := []
  wf := dot_S128x512_S512x200000_S128x200000_1_0_0_1_n_n_wf

class Facts : Prop extends Facts₀ where

variable [Facts]
-- ==== Proof.PreDecode.lean ====
/-
  What the precondition says of the arguments: every entry of the proxy table is a real number, and every label
  is non-negative as a signed word. (That the batch is finite too is never needed: both programs normalise
  it by the same operations.)
-/
import proofs.«410691_j90933047591179_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Affine

noncomputable section

namespace Cert.PreDecode

open Idealize.ShloMosaic Cert.Pre_finite_inputs ValueIdx

variable [Cert.Pre_finite_inputs.Facts]
open Cert.Pre_finite_inputs.Facts

instance : Subsingleton S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value `max x (-x)` is strictly below `+∞` is a real number. -/
theorem real_of_abs_lt_top (x : EReal) (h : max x (-x) < ⊤) : ∃ r : ℝ, x = (r : EReal) := by
  induction x using EReal.rec with
  | bot => simp at h
  | top => simp at h
  | coe r => exact ⟨r, rfl⟩

theorem decode (X : FVec Ideal S128x512 .f32) (T : IVec S128 32) (P : FVec Ideal S200000x512 .f32)
    (h : Cert.Pre_finite_inputs.fn (F := Ideal) X T P = fun _ => 1#1) :
    (∀ (j : Fin 200000) (k : Fin 512), ∃ r : ℝ, P (ix2 j k) = (r : EReal))
      ∧ ∀ b : Fin 128, 0 ≤ (T (ix1 b)).toInt := by
  have h0 := congrFun h ValueIdx.ix0
  dsimp only [Cert.Pre_finite_inputs.fn] at h0
  obtain ⟨h12, hT⟩ := IntOp.andi_eq_one.1 h0
  obtain ⟨_, hP⟩ := IntOp.andi_eq_one.1 h12
  constructor
  · intro j k
    have e := Host.reduce_andi_all _ _ _ _ _ hP (ix2 j k)
    have e' : Ideal.cmp .olt (max (P (ix2 j k)) (-(P (ix2 j k)))) (Ideal.ofBits .f32 0x7F800000#32) = 1#1 := e
    rw [ofBits_inf] at e'
    apply real_of_abs_lt_top
    unfold Ideal.cmp at e'
    dsimp only at e'
    cases hd : decide (max (P (ix2 j k)) (-(P (ix2 j k))) < ⊤)
    · rw [hd] at e'; exact absurd e' (by decide)
    · exact of_decide_eq_true hd
  · intro b
    have e := Host.reduce_andi_all _ _ _ _ _ hT (ix1 b)
    have e' : IntOp.cmpi .sge (T (ix1 b)) (0#32) = 1#1 := e
    have := IntOp.cmpi_sge.1 e'
    simpa using this

end Cert.PreDecode

end
-- ==== Proof.Spec.lean ====
/-
  The mathematics both programs compute, over plain coordinates and the extended reals.

  From a batch `xn` of 128 (already normalised) embeddings of width 512, a table `P` of 200000 proxies of
  the same width — ten consecutive rows per class, 20000 classes — and a label `T b` per batch row:
  each proxy row is scaled by the reciprocal root of its squared length plus `eps`; `cosine b j` is the
  inner product of batch row `b` with scaled proxy `j`; the positive and negative similarities of row `b`
  to class `c` are the sums over the class's ten proxies of `exp (-α (cos - δ))` and `exp (α (cos + δ))`;
  `psim c` sums the positive one over the rows labelled `c`, `nsim c` the negative one over the others
  (as `hot · s` and `(1 - hot) · s`, the indicator a number), and `count c` is how many rows carry label
  `c`. The loss is `Σ_c log1p (psim c) / #{c : count c ≠ 0} + Σ_c log1p (nsim c) / 20000`; both programs
  end in the very same host operations for it, so it is kept as that one composed function (`loss`) of
  the three arrays. The five constants are the words both programs print; none is ever evaluated.
-/
import Idealize.ShloMosaic.PureOps
import Idealize.ShloMosaic.PureOps.Ideal
import Idealize.ShloMosaic.PureOps.Ideal.Laws
import Idealize.ShloMosaic.Lib.StableHlo
import Idealize.ShloMosaic.Lib.ValueIdx

noncomputable section

namespace Cert.Spec

open Idealize.ShloMosaic

/-- The word under the root, `f32 1e-12`. -/
abbrev eps : EReal := Ideal.ofBits .f32 0x2B8CBCCC#32
/-- The margin δ, `f32 0.1`. -/
abbrev margin : EReal := Ideal.ofBits .f32 0x3DCCCCCD#32
/-- `-α = -32`. -/
abbrev negAlpha : EReal := Ideal.ofBits .f32 0xC2000000#32
/-- `α = 32`. -/
abbrev alpha : EReal := Ideal.ofBits .f32 0x42000000#32
/-- The word `1.0` the complement of the indicator is taken from. -/
abbrev one : EReal := Ideal.ofBits .f32 0x3F800000#32

variable (xn : Fin 128 → Fin 512 → EReal) (P : Fin 200000 → Fin 512 → EReal) (T : Fin 128 → BitVec 32)

/-- The squared length of proxy row `j`. -/
def sq (j : Fin 200000) : EReal := ∑ k : Fin 512, P j k * P j k

/-- Proxy row `j` scaled by the reciprocal root of its squared length plus `eps`. -/
def unit (j : Fin 200000) (k : Fin 512) : EReal := P j k * Ideal.rsqrt (sq P j + eps)

/-- The inner product of batch row `b` with the scaled proxy `j`. -/
def cosine (b : Fin 128) (j : Fin 200000) : EReal := ∑ k : Fin 512, xn b k * unit P j k

def posExp (b : Fin 128) (j : Fin 200000) : EReal := Ideal.exp (negAlpha * (cosine xn P b j - margin))
def negExp (b : Fin 128) (j : Fin 200000) : EReal := Ideal.exp (alpha * (cosine xn P b j + margin))

/-- Proxy `k` of class `c` is row `10 c + k` of the table. -/
def row (c : Fin 20000) (k : Fin 10) : Fin 200000 := ⟨10 * c.val + k.val, by have := c.isLt; have := k.isLt; omega⟩

/-- Grid point `g` streams proxy rows `2000 g … 2000 g + 1999`, that is classes `200 g … 200 g + 199`. -/
def blockRow (g : Fin 100) (r : Fin 2000) : Fin 200000 := ⟨2000 * g.val + r.val, by have := g.isLt; have := r.isLt; omega⟩
def blockClass (g : Fin 100) (cl : Fin 200) : Fin 20000 := ⟨200 * g.val + cl.val, by have := g.isLt; have := cl.isLt; omega⟩

def posSim (b : Fin 128) (c : Fin 20000) : EReal := ∑ k : Fin 10, posExp xn P b (row c k)
def negSim (b : Fin 128) (c : Fin 20000) : EReal := ∑ k : Fin 10, negExp xn P b (row c k)

/-- The indicator of "row `b` is labelled `c`", as a number: a label that is no class id (negative, or 20000 and
    more) is the label of no class. -/
def hot (b : Fin 128) (c : Fin 20000) : EReal := if T b = BitVec.ofNat 32 c.val then 1 else 0

def psim (c : Fin 20000) : EReal := ∑ b : Fin 128, hot T b c * posSim xn P b c
def nsim (c : Fin 20000) : EReal := ∑ b : Fin 128, (one - hot T b c) * negSim xn P b c
/-- How many batch rows carry label `c`. -/
def count (c : Fin 20000) : EReal := ∑ b : Fin 128, hot T b c

/-! ## The shared end of both programs -/

abbrev S20000 : Shape := ⟨1, ![20000]⟩
abbrev S_ : Shape := ⟨0, ![]⟩

/-- The host operations both programs end in, as one function of the two similarity arrays and the count array:
    `Σ log1p ps / #{c : cnt c ≠ 0} + Σ log1p ns / 20000` (the number of classes present is an integer sum of the
    widened mask, converted). The three shape relations are the programs' own stated facts. -/
def loss (hr : S20000.ReducesTo [0] S_) (h0 : 0 < S_.numel) (hb : S_.BroadcastsInDim S20000 (![] : Fin 0 → Fin S20000.rank)) (h132 : 1 < 32)
    (ps ns cnt : FVec Ideal S20000 .f32) : FVec Ideal S_ .f32 :=
  addf
    (Host.divf (Host.reduceAdd (Host.log1p ps) (constant S_ .f32 0x00000000#32) hr h0)
      (sitofp .f32 (Host.reduce IntOp.addi
        (extui 32 (cmpf .une cnt (broadcastInDim S20000 ![] hb (constant S_ .f32 0x00000000#32))) h132)
        (constantI S_ 32 0#32) hr h0)))
    (Host.divf (Host.reduceAdd (Host.log1p ns) (constant S_ .f32 0x00000000#32) hr h0)
      (constant S_ .f32 0x469C4000#32))

end Cert.Spec

end
-- ==== Proof.Counts.lean ====
/-
  The class counts the kernel's program takes by an accumulating scatter of ones at the labels.
-/
import proofs.«410691_j90933047591179_2_alg».proof.KernelIdeal
import proofs.«410691_j90933047591179_2_alg».proof.Proof.Spec
import Idealize.ShloMosaic.PureOps.Ideal
import Idealize.ShloMosaic.PureOps.Ideal.Laws
import Idealize.ShloMosaic.Lib.ValueIdx
import Idealize.ShloMosaic.Lib.Affine
import Idealize.ShloMosaic.Lib.StableHlo.Predicate
import Idealize.ShloMosaic.Lib.Pipeline.Value

noncomputable section

namespace Cert.KernelIdeal.Counts

open Idealize.ShloMosaic Cert.KernelIdeal ValueIdx

variable [Cert.KernelIdeal.Facts]
open Cert.KernelIdeal.Facts₀ Cert.KernelIdeal.Facts

/-- The word `0x3F800000` denotes `1`. -/
theorem ofBits_one : Ideal.ofBits .f32 0x3F800000#32 = (1 : EReal) := by
  simp [Ideal.ofBits, Ideal.ieee, -EReal.coe_mul]
  norm_num

/-- A non-negative signed word is left as it is by "add 20000 where negative". -/
theorem wrap_of_nonneg (t : BitVec 32) (ht : 0 ≤ t.toInt) :
    Scalar.select (IntOp.cmpi .slt t 0#32) (t + 20000#32) t = t := by
  have h0 : (0#32 : BitVec 32).toInt = 0 := by decide
  have h : ¬ IntOp.cmpi .slt t 0#32 = 1#1 := by
    rw [IntOp.cmpi_slt, h0]
    omega
  rw [eq_zero_of_ne_one h, select_zero]

/-- Scattering ones into zeros at non-negative labels counts, at class `c`, the rows labelled `c`: a label of
    20000 or more lands outside the array and adds nothing, as it is no class's label. -/
theorem scatter_count (x : FVec Ideal S20000 .f32) (idx : IVec S128x1 32) (upd : FVec Ideal S128 .f32)
    (T : Fin 128 → BitVec 32) (hx : ∀ c : Fin 20000, x (ix1 c) = 0) (hidx : ∀ b : Fin 128, idx (ix2 b 0) = T b)
    (hupd : ∀ b : Fin 128, upd (ix1 b) = 1) (hT : ∀ b : Fin 128, 0 ≤ (T b).toInt) (c : Fin 20000) :
    Host.scatterAdd (F := Ideal) scatter_S20000_S128x1_S128_n_0_0_1 x idx upd (ix1 c) = Spec.count T c := by
  have hstart : ∀ b : Fin 128, scatter_S20000_S128x1_S128_n_0_0_1.start (ix1 b) idx 0 = (idx (ix2 b 0)).toInt := by
    intro b
    have hi : scatter_S20000_S128x1_S128_n_0_0_1.siIdx (ix1 b) ⟨0, Nat.one_pos⟩ = ix2 b 0 := by
      funext a
      match a with
      | ⟨0, _⟩ => rfl
      | ⟨1, _⟩ => rfl
    refine Eq.trans ?_ (congrArg (fun k => (idx k).toInt) hi)
    rfl
  have hwin : ∀ b : Fin 128, scatter_S20000_S128x1_S128_n_0_0_1.window (ix1 b) 0 = 0 := by
    intro b
    rfl
  -- a non-negative word's signed reading is its unsigned one, so "is the word of c" is "reads c"
  have hTc : ∀ b : Fin 128, T b = BitVec.ofNat 32 c.val ↔ (T b).toInt = (c.val : ℤ) := by
    intro b
    have hc := c.isLt
    have hnat : (T b).toInt = ((T b).toNat : ℤ) := by
      have h0 := hT b
      have hl := (T b).isLt
      rw [BitVec.toInt_eq_toNat_cond] at h0 ⊢
      split_ifs at h0 ⊢ with hh
      · rfl
      · omega
    rw [hnat]
    constructor
    · intro h
      rw [h, BitVec.toNat_ofNat, Nat.mod_eq_of_lt (by omega)]
    · intro h
      apply BitVec.eq_of_toNat_eq
      rw [BitVec.toNat_ofNat, Nat.mod_eq_of_lt (by omega)]
      exact_mod_cast h
  -- row b's update lands on class c exactly when its label is c's word
  have key : ∀ b : Fin 128,
      scatter_S20000_S128x1_S128_n_0_0_1.resultIdx? (ix1 b) idx = some (ix1 c) ↔ T b = BitVec.ofNat 32 c.val := by
    intro b
    have hsum : ∀ a : Fin S20000.rank,
        scatter_S20000_S128x1_S128_n_0_0_1.start (ix1 b) idx a
          + (scatter_S20000_S128x1_S128_n_0_0_1.window (ix1 b) a : ℤ) = (T b).toInt := by
      intro a
      match a with
      | ⟨0, _⟩ =>
        show scatter_S20000_S128x1_S128_n_0_0_1.start (ix1 b) idx 0
          + (scatter_S20000_S128x1_S128_n_0_0_1.window (ix1 b) 0 : ℤ) = (T b).toInt
        rw [hstart b, hwin b, hidx b]
        simp
    rw [hTc b]
    unfold ScatterDims.resultIdx?
    constructor
    · intro h
      split at h
      · have h' := congrArg (fun f => (f 0).val) (Option.some.inj h)
        change (scatter_S20000_S128x1_S128_n_0_0_1.start (ix1 b) idx 0
          + (scatter_S20000_S128x1_S128_n_0_0_1.window (ix1 b) 0 : ℤ)).toNat = c.val at h'
        rw [hsum 0] at h'
        have h0 := hT b
        omega
      · exact absurd h (by simp)
    · intro h
      have hcond : ∀ a : Fin S20000.rank,
          0 ≤ scatter_S20000_S128x1_S128_n_0_0_1.start (ix1 b) idx a
              + (scatter_S20000_S128x1_S128_n_0_0_1.window (ix1 b) a : ℤ)
          ∧ scatter_S20000_S128x1_S128_n_0_0_1.start (ix1 b) idx a
              + (scatter_S20000_S128x1_S128_n_0_0_1.window (ix1 b) a : ℤ) < (S20000.size a : ℤ) := by
        intro a
        rw [hsum a, h]
        match a with
        | ⟨0, _⟩ =>
          refine ⟨by omega, ?_⟩
          show (c.val : ℤ) < ((20000 : ℕ) : ℤ)
          have := c.isLt
          omega
      rw [dif_pos hcond]
      congr 1
      funext a
      match a with
      | ⟨0, _⟩ =>
        apply Fin.ext
        show (scatter_S20000_S128x1_S128_n_0_0_1.start (ix1 b) idx 0
          + (scatter_S20000_S128x1_S128_n_0_0_1.window (ix1 b) 0 : ℤ)).toNat = c.val
        rw [hsum 0, h]
        simp
  -- the scatter at an index: the zero there plus the updates that land there, summed over the rows
  show Ideal.hostScatterAdd scatter_S20000_S128x1_S128_n_0_0_1 x idx upd (ix1 c) = _
  unfold Ideal.hostScatterAdd
  rw [hx c, zero_add, Finset.sum_filter]
  unfold Spec.count Spec.hot
  let e : Fin 128 ≃ S128.Idx := ⟨ix1, fun j => j 0, fun _ => rfl, fun j => (eq_ix1 j).symm⟩
  refine (Fintype.sum_equiv e _ _ (fun b => ?_)).symm
  show (if T b = BitVec.ofNat 32 c.val then (1 : EReal) else 0)
    = if scatter_S20000_S128x1_S128_n_0_0_1.resultIdx? (ix1 b) idx = some (ix1 c) then upd (ix1 b) else 0
  rw [hupd b]
  exact (if_congr (key b) rfl rfl).symm

/-- The count array the kernel's program takes from a label vector: ones scattered, adding, into zeros at the labels,
    a negative label first moved up by 20000. -/
def cntK (T' : IVec S128 32) : FVec Ideal S20000 .f32 :=
  Host.scatterAdd scatter_S20000_S128x1_S128_n_0_0_1
    (broadcastInDim S20000 ![] bcast_S_S20000 (constant S_ .f32 0x00000000#32))
    (broadcastInDim S128x1 ![0] bcast_S128_S128x1_0
      (select (cmpi .slt T' (broadcastInDim S128 ![] bcast_S_S128 (constantI S_ 32 0#32)))
        (addi T' (broadcastInDim S128 ![] bcast_S_S128 (constantI S_ 32 20000#32))) T'))
    (broadcastInDim S128 ![] bcast_S_S128 (constant S_ .f32 0x3F800000#32))

/-- With every label non-negative it is the specification's count. -/
theorem cntK_apply (T' : IVec S128 32) (hT : ∀ b : Fin 128, 0 ≤ (T' (ix1 b)).toInt) (c : Fin 20000) :
    cntK T' (ix1 c) = Spec.count (fun b => T' (ix1 b)) c := by
  unfold cntK
  refine scatter_count _ _ _ (fun b => T' (ix1 b)) ?_ ?_ ?_ hT c
  · -- the zeros
    intro c'
    show Ideal.ofBits .f32 0x00000000#32 = 0
    exact Ideal.ofBits_zero_f32
  · -- the labels as a column, each moved up by 20000 where negative: none is
    intro b
    refine (broadcastInDim_apply _ _ _ (ix2 b 0) (ix1 b) ?_).trans ?_
    · intro a
      match a with
      | ⟨0, _⟩ => rfl
    · show Scalar.select (IntOp.cmpi .slt (T' (ix1 b)) 0#32) (T' (ix1 b) + 20000#32) (T' (ix1 b)) = T' (ix1 b)
      exact wrap_of_nonneg _ (hT b)
  · -- the ones
    intro b
    show Ideal.ofBits .f32 0x3F800000#32 = 1
    exact ofBits_one

end Cert.KernelIdeal.Counts

end
-- ==== Proof.Tail.lean ====
/-
  The host operations after the region, read back: the program's result is the shared end (`Spec.loss`) of the two
  output arrays, each reshaped from a column to a vector, and of the class counts taken from the labels (the label
  column reshaped back to a vector).
-/
import proofs.«410691_j90933047591179_2_alg».proof.Proof.KernelIdealFrame
import proofs.«410691_j90933047591179_2_alg».proof.Proof.Spec
import proofs.«410691_j90933047591179_2_alg».proof.Proof.Counts
import Idealize.ShloMosaic.Lib.Pipeline.Value
import Idealize.ShloMosaic.Lib.StableHlo.Run

noncomputable section

namespace Cert.KernelIdeal.Val

open Idealize.ShloMosaic Idealize.ShloMosaic.TcCoe Idealize.SL.Sem Idealize.ShloMosaic.StableHlo
open Cert.KernelIdeal Cert.KernelIdeal.Gen Cert.KernelIdeal.GenP

variable (m : (ℓ : Loc nD τ sig) → Buf (Elt Ideal) ℓ)

/-- An unscoped buffer as the operations after the region find it: an array of the pipeline at what the run leaves
    in it, any other buffer as the region found it. -/
abbrev WA (c : Dev nD) (b : Ref sig .tc) : Buf (Elt Ideal) ((c.tc : Thread nD τ).loc b) :=
  Pipeline.withArrays (cfgs 0).spec c (V0 m c) (fun w => (dats m 0 c).arrAt w (cfgs 0).N) (Proc.devRef .tc b)

set_option maxHeartbeats 8000000 in
theorem tail_raw (c : Dev nD) :
    Pipeline.afterTail₀ cfgs (dats m) 0 (V0 m) [hostOps1] c main_v34
      = Spec.loss reducesTo_S20000_S_d0 h_S_ bcast_S_S20000 natLt_1_32
          (shapeCast S20000 (WA m c main_v10_0) shapeCasts_S20000x1_S20000)
          (shapeCast S20000 (WA m c main_v10_1) shapeCasts_S20000x1_S20000)
          (Counts.cntK (shapeCast S128 (WA m c main_v9) shapeCasts_S128x1_S128)) := by
  unfold Pipeline.afterTail₀
  show StableHlo.after hostOps1 _ (Proc.devRef .tc main_v34) = _
  after_results
  rfl

end Cert.KernelIdeal.Val

end
-- ==== Proof.PayCos.lean ====
/-
  The block's matrix product, read at an index: the cosine of a batch row with one of the block's proxies.
-/
import proofs.«410691_j90933047591179_2_alg».proof.Proof.Gen.KernelIdeal.Skeleton
import proofs.«410691_j90933047591179_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Cert.KernelIdeal Cert.KernelIdeal.Gen ValueIdx

/-! ## The operand indices of the block's product -/

theorem lhs_dot_0 (i : S128x2000.Idx) (q : dot_S128x512_S512x2000_S128x2000_1_0_0_1_n_n.contr.Idx) :
    (dot_S128x512_S512x2000_S128x2000_1_0_0_1_n_n.lhsIdx i q 0).val = (i 0).val := by
  unfold DotDims.lhsIdx
  rw [dif_neg (show ¬(0 : Fin S128x512.rank) ∈ dot_S128x512_S512x2000_S128x2000_1_0_0_1_n_n.lhsBatch by decide), dif_pos (show (0 : Fin S128x512.rank) ∈ dot_S128x512_S512x2000_S128x2000_1_0_0_1_n_n.lhsNonContracting by decide)]
  rfl
theorem lhs_dot_1 (i : S128x2000.Idx) (q : dot_S128x512_S512x2000_S128x2000_1_0_0_1_n_n.contr.Idx) :
    (dot_S128x512_S512x2000_S128x2000_1_0_0_1_n_n.lhsIdx i q 1).val = (q ⟨0, by decide⟩).val :=
  dot_S128x512_S512x2000_S128x2000_1_0_0_1_n_n.lhsIdx_val_of_single rfl i q
theorem rhs_dot_0 (i : S128x2000.Idx) (q : dot_S128x512_S512x2000_S128x2000_1_0_0_1_n_n.contr.Idx) :
    (dot_S128x512_S512x2000_S128x2000_1_0_0_1_n_n.rhsIdx i q 0).val = (q ⟨0, by decide⟩).val :=
  dot_S128x512_S512x2000_S128x2000_1_0_0_1_n_n.rhsIdx_val_of_single rfl i q
theorem rhs_dot_1 (i : S128x2000.Idx) (q : dot_S128x512_S512x2000_S128x2000_1_0_0_1_n_n.contr.Idx) :
    (dot_S128x512_S512x2000_S128x2000_1_0_0_1_n_n.rhsIdx i q 1).val = (i 1).val := by
  unfold DotDims.rhsIdx
  rw [dif_neg (show ¬(1 : Fin S512x2000.rank) ∈ dot_S128x512_S512x2000_S128x2000_1_0_0_1_n_n.rhsBatch by decide), dif_pos (show (1 : Fin S512x2000.rank) ∈ dot_S128x512_S512x2000_S128x2000_1_0_0_1_n_n.rhsNonContracting by decide)]
  rfl

/-- The product into a zero accumulator at `(b, r)`: the sum over the 512 lanes of left `(b, k)` times right `(k, r)`. -/
theorem matmul_read (y0 : FVec Ideal S128x512 .bf16) (y1 : FVec Ideal S512x2000 .bf16) (b : Fin 128) (r : Fin 2000) :
    matmul dot_S128x512_S512x2000_S128x2000_1_0_0_1_n_n none y0 y1 (constant (F := Ideal) S128x2000 .f32 0x00000000#32) (ix2 b r)
      = ∑ k : Fin 512, y0 (ix2 b k) * y1 (ix2 k r) := by
  refine (Ideal.matmul_constant_zero_apply dot_S128x512_S512x2000_S128x2000_1_0_0_1_n_n none y0 y1 (ix2 b r)).trans ?_
  rw [← Equiv.sum_comp (contrEquiv1 dot_S128x512_S512x2000_S128x2000_1_0_0_1_n_n 512 rfl rfl).symm]
  refine Finset.sum_congr rfl fun k _ => ?_
  have hk := contrEquiv1_symm_val dot_S128x512_S512x2000_S128x2000_1_0_0_1_n_n 512 rfl rfl k
  have el : dot_S128x512_S512x2000_S128x2000_1_0_0_1_n_n.lhsIdx (ix2 b r) ((contrEquiv1 dot_S128x512_S512x2000_S128x2000_1_0_0_1_n_n 512 rfl rfl).symm k) = ix2 b k := funext fun a => Fin.ext (by
    match a with
    | ⟨0, _⟩ => exact lhs_dot_0 _ _
    | ⟨1, _⟩ => exact (lhs_dot_1 _ _).trans hk)
  have er : dot_S128x512_S512x2000_S128x2000_1_0_0_1_n_n.rhsIdx (ix2 b r) ((contrEquiv1 dot_S128x512_S512x2000_S128x2000_1_0_0_1_n_n 512 rfl rfl).symm k) = ix2 k r := funext fun a => Fin.ext (by
    match a with
    | ⟨0, _⟩ => exact (rhs_dot_0 _ _).trans hk
    | ⟨1, _⟩ => exact rhs_dot_1 _ _)
  rw [el, er]

/-! ## The layout steps of the scaling column -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a `[2000, 512]` block at row `r`: the sum over the 512 lanes of the block at `(r, k)`. -/
theorem laneSum_read (x : FVec Ideal S2000x512 .f32) (hφ : FKind.Formats .f32)
    (hacc : (0x00000000#32 : BitVec 32) = FKind.add.neutral .f32 hφ) (r : Fin 2000) :
    multiReduction (F := Ideal) .add [1] S2000 x 0x00000000#32 reduces_S2000x512_S2000 hφ hacc (ix1 r)
      = ∑ k : Fin 512, x (ix2 r k) := by
  refine (Ideal.multiReduction_add_single x _ reduces_S2000x512_S2000 hφ hacc (ix1 r)).trans ?_
  refine Finset.sum_congr rfl fun k _ => congrArg x ?_
  funext c
  apply Fin.ext
  match c with
  | ⟨0, _⟩ => rfl
  | ⟨1, _⟩ => rfl

/-- The block's product at `(b, r)`: batch row `b` against proxy row `2000 g + r` scaled by the reciprocal root of
    its squared length plus `eps`. -/
theorem cos_block (g : Fin 100)
    (x0 : Vec Ideal S128x512 .bf16) (x1 : Vec Ideal S2000x512 .f32)
    (xn : Fin 128 → Fin 512 → EReal) (P : Fin 200000 → Fin 512 → EReal)
    (h0 : ∀ (b : Fin 128) (k : Fin 512), x0 (ix2 b k) = xn b k)
    (h1 : ∀ (r : Fin 2000) (k : Fin 512), x1 (ix2 r k) = P (Spec.blockRow g r) k)
    (b : Fin 128) (r : Fin 2000) :
    k0_pay3 (F := Ideal) x1 x0 (ix2 b r) = Spec.cosine xn P b (Spec.blockRow g r) := by
  unfold k0_pay3
  refine (matmul_read _ _ b r).trans ?_
  unfold Spec.cosine Spec.unit Spec.sq
  refine Finset.sum_congr rfl fun k _ => ?_
  -- the left factor is the batch block itself; the right one is the scaled proxy block, transposed
  refine congrArg₂ (· * ·) ((congrFun (shapeCast_self x0 _) _).trans (h0 b k)) ?_
  refine (transpose_ix2_apply _ _ k r).trans ?_
  refine (truncf_apply (ψ := .bf16) _ bitsLt_bf16_f32 _).trans ?_
  refine (mulf_apply _ _ _).trans ?_
  refine congrArg₂ (· * ·) (h1 r k) ?_
  -- the scaling column, broadcast along the lanes, is the reciprocal root at row `r`
  refine (broadcastTo_a1_ab_apply _ _ r k).trans ?_
  refine (shapeCast_a_a1_apply _ _ r 0).trans ?_
  show Ideal.rsqrt (multiReduction (F := Ideal) .add [1] S2000 (mulf x1 x1) 0x00000000#32 reduces_S2000x512_S2000 _ _ (ix1 r) + Spec.eps) = _
  refine congrArg (fun s => Ideal.rsqrt (s + Spec.eps)) ?_
  refine (laneSum_read _ _ _ r).trans ?_
  refine Finset.sum_congr rfl fun k' _ => ?_
  refine (mulf_apply _ _ _).trans ?_
  rw [h1 r k']

end Cert.KernelIdeal.Pay

end
-- ==== Proof.PayHot.lean ====
/-
  The block's label indicator, read at an index.
-/
import proofs.«410691_j90933047591179_2_alg».proof.Proof.Gen.KernelIdeal.Skeleton
import proofs.«410691_j90933047591179_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Cert.KernelIdeal Cert.KernelIdeal.Gen ValueIdx

theorem hot_block (i : grid0.Coords) (g : Fin 100) (hg : (i 0).val = g.val)
    (x2 : Vec Ideal S128x1 .i32) (T : Fin 128 → BitVec 32)
    (h2 : ∀ b : Fin 128, x2 (ix2 b 0) = T b) (b : Fin 128) (cl : Fin 200) :
    k0_pay5 (F := Ideal) i x2 (ix2 b cl) = Spec.hot T b (Spec.blockClass g cl) := by
  unfold k0_pay5
  -- the conversions and the comparison read pointwise
  show FloatOps.sitofp (F := Ideal) .f32
      ((IntOp.cmpi .eq
        (broadcastTo S128x200 (shapeCast S128x1 x2 shapeCasts_S128x1_S128x1) broadcasts_S128x1_S128x200 (ix2 b cl))
        (broadcastTo S128x200
          (addi (broadcast S1x200 (Scalar.muli (BitVec.ofNat 32 (i 0).val) 200#32))
            (iota .tc S1x200 32 [1] iota_S1x200_d1_w32)) broadcasts_S1x200_S128x200 (ix2 b cl))).setWidth 32) = _
  -- the label block, cast to its own shape and spread along the classes, reads the row's label
  have e1 : broadcastTo S128x200 (shapeCast S128x1 x2 shapeCasts_S128x1_S128x1) broadcasts_S128x1_S128x200 (ix2 b cl)
      = T b := by
    rw [shapeCast_self]
    refine (broadcastTo_apply _ _ (ix2 b cl) (ix2 b 0) ?_).trans (h2 b)
    intro a
    match a with
    | ⟨0, _⟩ => rfl
    | ⟨1, _⟩ => rfl
  -- the class ids, spread along the rows, read 200 g + cl
  have e2 : broadcastTo S128x200
          (addi (broadcast S1x200 (Scalar.muli (BitVec.ofNat 32 (i 0).val) 200#32))
            (iota .tc S1x200 32 [1] iota_S1x200_d1_w32)) broadcasts_S1x200_S128x200 (ix2 b cl)
      = BitVec.ofNat 32 (200 * g.val + cl.val) := by
    refine (broadcastTo_apply _ _ (ix2 b cl) (ix2 0 cl) ?_).trans ?_
    · intro a
      match a with
      | ⟨0, _⟩ => rfl
      | ⟨1, _⟩ => rfl
    · show IntOp.addi (Scalar.muli (BitVec.ofNat 32 (i 0).val) 200#32)
          (iota .tc S1x200 32 [1] iota_S1x200_d1_w32 (ix2 0 cl)) = _
      rw [iota_single_apply, hg]
      show BitVec.ofNat 32 g.val * 200#32 + BitVec.ofNat 32 cl.val = _
      apply BitVec.eq_of_toNat_eq
      simp only [BitVec.toNat_add, BitVec.toNat_mul, BitVec.toNat_ofNat]
      have := g.isLt
      have := cl.isLt
      omega
  rw [e1, e2]
  show FloatOps.sitofp (F := Ideal) .f32
      ((BitVec.ofBool (T b == BitVec.ofNat 32 (200 * g.val + cl.val))).setWidth 32)
      = if T b = BitVec.ofNat 32 (200 * g.val + cl.val) then 1 else 0
  by_cases h : T b = BitVec.ofNat 32 (200 * g.val + cl.val)
  · have hb : (T b == BitVec.ofNat 32 (200 * g.val + cl.val)) = true := by simpa using h
    rw [hb, if_pos h]
    show (((((BitVec.ofBool true).setWidth 32).toInt : ℤ) : ℝ) : EReal) = 1
    have hw : ((BitVec.ofBool true).setWidth 32).toInt = 1 := by decide
    rw [hw]
    simp
  · have hb : (T b == BitVec.ofNat 32 (200 * g.val + cl.val)) = false := by simpa using h
    rw [hb, if_neg h]
    show (((((BitVec.ofBool false).setWidth 32).toInt : ℤ) : ℝ) : EReal) = 0
    have hw : ((BitVec.ofBool false).setWidth 32).toInt = 0 := by decide
    rw [hw]
    simp

end Cert.KernelIdeal.Pay

end
-- ==== Proof.Payload.lean ====
/-
  What one grid point stores, read at an index.
-/
import proofs.«410691_j90933047591179_2_alg».proof.Proof.Gen.KernelIdeal.Skeleton
import proofs.«410691_j90933047591179_2_alg».proof.Proof.Spec
import proofs.«410691_j90933047591179_2_alg».proof.Proof.PayCos
import proofs.«410691_j90933047591179_2_alg».proof.Proof.PayHot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Cert.KernelIdeal Cert.KernelIdeal.Gen ValueIdx

namespace Store

/-! ## The four layout steps, each read at an index -/

/-- The sum over the batch axis of a [128, 200] array, read at class slot `cl`. -/
theorem sumBatch_apply (v : FVec Ideal S128x200 .f32) (cl : Fin 200) :
    multiReduction (F := Ideal) .add [0] S200 v 0x00000000#32 reduces_S128x200_S200 (.inl rfl) rfl (ix1 cl)
      = ∑ b : Fin 128, v (ix2 b cl) := by
  refine (Ideal.multiReduction_add_single v _ reduces_S128x200_S200 _ _ (ix1 cl)).trans ?_
  show ∑ b : Fin 128, v (reduces_S128x200_S200.lift (ix1 cl) b) = _
  refine Finset.sum_congr rfl fun b _ => congrArg v ?_
  funext c
  apply Fin.ext
  match c with
  | ⟨0, _⟩ => rfl
  | ⟨1, _⟩ => rfl

/-- A [200] array viewed as a [200, 1] column reads, at `(cl, 0)`, the array at `cl`. -/
theorem column_apply (w : FVec Ideal S200 .f32) (cl : Fin 200) :
    shapeCast S200x1 w shapeCasts_S200_S200x1 (ix2 cl 0) = w (ix1 cl) :=
  shapeCast_apply w shapeCasts_S200_S200x1 _ _ (by
    rw [Shape.rowMajor_val_two, Shape.rowMajor_val_one]
    show cl.val = cl.val * 1 + 0
    omega)

/-- The sum over the ten lanes of a [128, 200, 10] array, read at `(b, cl)`. -/
theorem sumLane_apply (v : FVec Ideal S128x200x10 .f32) (b : Fin 128) (cl : Fin 200) :
    multiReduction (F := Ideal) .add [2] S128x200 v 0x00000000#32 reduces_S128x200x10_S128x200 (.inl rfl) rfl (ix2 b cl)
      = ∑ k : Fin 10, v (ix3 b cl k) := by
  refine (Ideal.multiReduction_add_single v _ reduces_S128x200x10_S128x200 _ _ (ix2 b cl)).trans ?_
  show ∑ k : Fin 10, v (reduces_S128x200x10_S128x200.lift (ix2 b cl) k) = _
  refine Finset.sum_congr rfl fun k _ => congrArg v ?_
  funext c
  apply Fin.ext
  match c with
  | ⟨0, _⟩ => rfl
  | ⟨1, _⟩ => rfl
  | ⟨2, _⟩ => rfl

/-- Lane `k` of class slot `cl` is column `10 cl + k` of the block. -/
def lane (cl : Fin 200) (k : Fin 10) : Fin 2000 :=
  ⟨10 * cl.val + k.val, by have := cl.isLt; have := k.isLt; omega⟩

/-- A [128, 2000] array viewed as [128, 200, 10] reads, at `(b, cl, k)`, the array at `(b, 10 cl + k)`. -/
theorem lanes_apply (y : FVec Ideal S128x2000 .f32) (b : Fin 128) (cl : Fin 200) (k : Fin 10) :
    shapeCast S128x200x10 y shapeCasts_S128x2000_S128x200x10 (ix3 b cl k) = y (ix2 b (lane cl k)) :=
  shapeCast_apply y shapeCasts_S128x2000_S128x200x10 _ _ (by
    rw [Shape.rowMajor_val_two, Shape.rowMajor_val_three]
    show b.val * 2000 + (10 * cl.val + k.val) = (b.val * 200 + cl.val) * 10 + k.val
    omega)

/-- Column `10 cl + k` of grid point `g`'s block is proxy `k` of class `200 g + cl`. -/
theorem blockRow_lane (g : Fin 100) (cl : Fin 200) (k : Fin 10) :
    Spec.blockRow g (lane cl k) = Spec.row (Spec.blockClass g cl) k := by
  apply Fin.ext
  show 2000 * g.val + (10 * cl.val + k.val) = 10 * (200 * g.val + cl.val) + k.val
  omega

/-! ## The two lane sums over an array of cosines -/

/-- The lane sum of `exp (-α (y - δ))` at `(b, cl)`. -/
theorem posLanes_apply (y : FVec Ideal S128x2000 .f32) (b : Fin 128) (cl : Fin 200) :
    multiReduction (F := Ideal) .add [2] S128x200
        (shapeCast S128x200x10
          (exp (mulf (broadcast S128x2000 (Scalar.ofBits .f32 0xC2000000#32))
            (subf y (broadcast S128x2000 (Scalar.ofBits .f32 0x3DCCCCCD#32)))))
          shapeCasts_S128x2000_S128x200x10)
        0x00000000#32 reduces_S128x200x10_S128x200 (.inl rfl) rfl (ix2 b cl)
      = ∑ k : Fin 10, Ideal.exp (Spec.negAlpha * (y (ix2 b (lane cl k)) - Spec.margin)) := by
  refine (sumLane_apply _ b cl).trans ?_
  refine Finset.sum_congr rfl fun k _ => ?_
  refine (lanes_apply _ b cl k).trans ?_
  rfl

/-- The lane sum of `exp (α (y + δ))` at `(b, cl)`. -/
theorem negLanes_apply (y : FVec Ideal S128x2000 .f32) (b : Fin 128) (cl : Fin 200) :
    multiReduction (F := Ideal) .add [2] S128x200
        (shapeCast S128x200x10
          (exp (mulf (broadcast S128x2000 (Scalar.ofBits .f32 0x42000000#32))
            (addf y (broadcast S128x2000 (Scalar.ofBits .f32 0x3DCCCCCD#32)))))
          shapeCasts_S128x2000_S128x200x10)
        0x00000000#32 reduces_S128x200x10_S128x200 (.inl rfl) rfl (ix2 b cl)
      = ∑ k : Fin 10, Ideal.exp (Spec.alpha * (y (ix2 b (lane cl k)) + Spec.margin)) := by
  refine (sumLane_apply _ b cl).trans ?_
  refine Finset.sum_congr rfl fun k _ => ?_
  refine (lanes_apply _ b cl k).trans ?_
  rfl

section
variable (g : Fin 100)
    (x0 : Vec Ideal S128x512 .bf16) (x1 : Vec Ideal S2000x512 .f32)
    (xn : Fin 128 → Fin 512 → EReal) (P : Fin 200000 → Fin 512 → EReal)
    (h0 : ∀ (b : Fin 128) (k : Fin 512), x0 (ix2 b k) = xn b k)
    (h1 : ∀ (r : Fin 2000) (k : Fin 512), x1 (ix2 r k) = P (Spec.blockRow g r) k)
include h0 h1

/-- The positive lane sum of the block's cosines is the positive similarity to class `200 g + cl`. -/
theorem posSim_block (b : Fin 128) (cl : Fin 200) :
    ∑ k : Fin 10, Ideal.exp (Spec.negAlpha * (k0_pay3 (F := Ideal) x1 x0 (ix2 b (lane cl k)) - Spec.margin))
      = Spec.posSim xn P b (Spec.blockClass g cl) := by
  unfold Spec.posSim
  refine Finset.sum_congr rfl fun k _ => ?_
  rw [← blockRow_lane g cl k]
  unfold Spec.posExp
  exact congrArg (fun c => Ideal.exp (Spec.negAlpha * (c - Spec.margin)))
    (cos_block g x0 x1 xn P h0 h1 b (lane cl k))

/-- The negative lane sum of the block's cosines is the negative similarity to class `200 g + cl`. -/
theorem negSim_block (b : Fin 128) (cl : Fin 200) :
    ∑ k : Fin 10, Ideal.exp (Spec.alpha * (k0_pay3 (F := Ideal) x1 x0 (ix2 b (lane cl k)) + Spec.margin))
      = Spec.negSim xn P b (Spec.blockClass g cl) := by
  unfold Spec.negSim
  refine Finset.sum_congr rfl fun k _ => ?_
  rw [← blockRow_lane g cl k]
  unfold Spec.negExp
  exact congrArg (fun c => Ideal.exp (Spec.alpha * (c + Spec.margin)))
    (cos_block g x0 x1 xn P h0 h1 b (lane cl k))

end

end Store

open Store

theorem psim_block (i : grid0.Coords) (g : Fin 100) (hg : (i 0).val = g.val)
    (x0 : Vec Ideal S128x512 .bf16) (x1 : Vec Ideal S2000x512 .f32) (x2 : Vec Ideal S128x1 .i32)
    (xn : Fin 128 → Fin 512 → EReal) (P : Fin 200000 → Fin 512 → EReal) (T : Fin 128 → BitVec 32)
    (h0 : ∀ (b : Fin 128) (k : Fin 512), x0 (ix2 b k) = xn b k)
    (h1 : ∀ (r : Fin 2000) (k : Fin 512), x1 (ix2 r k) = P (Spec.blockRow g r) k)
    (h2 : ∀ b : Fin 128, x2 (ix2 b 0) = T b) (cl : Fin 200) :
    k0_pay1 (F := Ideal) (k0_pay7 i x1 x0 x2) (ix2 cl 0) = Spec.psim xn P T (Spec.blockClass g cl) := by
  unfold k0_pay1
  refine (column_apply _ cl).trans ?_
  refine (sumBatch_apply _ cl).trans ?_
  unfold Spec.psim
  refine Finset.sum_congr rfl fun b _ => ?_
  unfold k0_pay7
  refine (mulf_apply _ _ _).trans ?_
  refine congrArg₂ (· * ·) (hot_block i g hg x2 T h2 b cl) ?_
  refine (posLanes_apply _ b cl).trans ?_
  exact posSim_block g x0 x1 xn P h0 h1 b cl

theorem nsim_block (i : grid0.Coords) (g : Fin 100) (hg : (i 0).val = g.val)
    (x0 : Vec Ideal S128x512 .bf16) (x1 : Vec Ideal S2000x512 .f32) (x2 : Vec Ideal S128x1 .i32)
    (xn : Fin 128 → Fin 512 → EReal) (P : Fin 200000 → Fin 512 → EReal) (T : Fin 128 → BitVec 32)
    (h0 : ∀ (b : Fin 128) (k : Fin 512), x0 (ix2 b k) = xn b k)
    (h1 : ∀ (r : Fin 2000) (k : Fin 512), x1 (ix2 r k) = P (Spec.blockRow g r) k)
    (h2 : ∀ b : Fin 128, x2 (ix2 b 0) = T b) (cl : Fin 200) :
    k0_pay2 (F := Ideal) (k0_pay4 x1 x0) (k0_pay6 i x2) (ix2 cl 0) = Spec.nsim xn P T (Spec.blockClass g cl) := by
  unfold k0_pay2
  refine (column_apply _ cl).trans ?_
  refine (sumBatch_apply _ cl).trans ?_
  unfold Spec.nsim
  refine Finset.sum_congr rfl fun b _ => ?_
  refine (mulf_apply _ _ _).trans ?_
  refine congrArg₂ (· * ·) ?_ ?_
  · unfold k0_pay6
    refine (subf_apply _ _ _).trans ?_
    exact congrArg (fun c => Spec.one - c) (hot_block i g hg x2 T h2 b cl)
  · unfold k0_pay4
    refine (negLanes_apply _ b cl).trans ?_
    exact negSim_block g x0 x1 xn P h0 h1 b cl

end Cert.KernelIdeal.Pay

end
-- ==== Proof.Blocks.lean ====
/-
  The two output arrays after the region: class `c`'s entry is the specification's `psim c` / `nsim c` of what the
  region finds in its three input arrays.
-/
import proofs.«410691_j90933047591179_2_alg».proof.Proof.KernelIdealFrame
import proofs.«410691_j90933047591179_2_alg».proof.Proof.Payload
import proofs.«410691_j90933047591179_2_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem ValueIdx
open Idealize.ShloMosaic.Pipeline (Dat Cfg Window)
open Cert.KernelIdeal Cert.KernelIdeal.Gen Cert.KernelIdeal.GenP

variable (m : (ℓ : Loc nD τ sig) → Buf (Elt Ideal) ℓ)

/-- The normalised batch as the region finds it (window 0's array), by coordinates. -/
abbrev xnA (c : Dev nD) : Fin 128 → Fin 512 → EReal := fun b k => V m c main_v8 (ix2 b k)
/-- The proxy table as the region finds it (window 1's array), by coordinates. -/
abbrev tabA (c : Dev nD) : Fin 200000 → Fin 512 → EReal := fun j k => V m c main_arg2 (ix2 j k)
/-- The labels as the region finds them (window 2's array, a column), by coordinate. -/
abbrev labA (c : Dev nD) : Fin 128 → BitVec 32 := fun b => V m c main_v9 (ix2 b 0)

/-- What window 3's array ends holding: `psim` of the class its row is. -/
abbrev G3 (c : Dev nD) : S20000x1.Idx → EReal := fun i => Spec.psim (xnA m c) (tabA m c) (labA m c) ⟨(i 0).val, (i 0).isLt⟩
/-- What window 4's array ends holding: `nsim` of the class its row is. -/
abbrev G4 (c : Dev nD) : S20000x1.Idx → EReal := fun i => Spec.nsim (xnA m c) (tabA m c) (labA m c) ⟨(i 0).val, (i 0).isLt⟩

/-- The unit rectangle's offsets are all zero. -/
theorem hz : (![0, 0] : Fin 2 → Nat) = fun _ => 0 := funext fun a => by fin_cases a <;> rfl

/-- The index maps, decided over the grid: the batch and the labels always at block (0, 0); the proxy table and the two
    outputs at block (t, 0); and the grid's one coordinate is the point's number. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ ((grid0.coords t) 0).val = t.val :=
  (by decide +kernel : ∀ t : Fin grid0.N, _)

/-- The batch block at any point is the whole batch. -/
theorem blk0_apply (c : Dev nD) (t : Fin cfg0.N) (b : Fin 128) (k : Fin 512) :
    (iblk m c 0 t : Vec Ideal S128x512 .bf16) (ix2 b k) = xnA m c b k := by
  obtain ⟨e00, e01, -⟩ := idx_facts t
  unfold iblk
  rw [View.read_apply]
  show V m c main_v8 _ = V m c main_v8 (ix2 b k)
  congr 1
  funext a
  apply Fin.ext
  match a with
  | ⟨0, _⟩ => show win0_0.index t (0 : Fin 2) * 128 + 1 * b.val = b.val; rw [e00]; omega
  | ⟨1, _⟩ => show win0_0.index t (1 : Fin 2) * 512 + 1 * k.val = k.val; rw [e01]; omega

/-- Point `t` of the grid as a number below 100. -/
def pt (t : Fin cfg0.N) : Fin 100 := ⟨t.val, by have h : cfg0.N = 100 := N_0; have := t.isLt; omega⟩

/-- The proxy block at point `t` is rows `2000 t … 2000 t + 1999` of the table. -/
theorem blk1_apply (c : Dev nD) (t : Fin cfg0.N) (r : Fin 2000) (k : Fin 512) :
    (iblk m c 1 t : Vec Ideal S2000x512 .f32) (ix2 r k) = tabA m c (Spec.blockRow (pt t) r) k := by
  obtain ⟨-, -, e10, e11, -⟩ := idx_facts t
  unfold iblk
  rw [View.read_apply]
  show V m c main_arg2 _ = V m c main_arg2 (ix2 (Spec.blockRow (pt t) r) k)
  congr 1
  funext a
  apply Fin.ext
  match a with
  | ⟨0, _⟩ => show win0_1.index t (0 : Fin 2) * 2000 + 1 * r.val = 2000 * t.val + r.val; rw [e10]; omega
  | ⟨1, _⟩ => show win0_1.index t (1 : Fin 2) * 512 + 1 * k.val = k.val; rw [e11]; omega

/-- The label block at any point is the whole label column. -/
theorem blk2_apply (c : Dev nD) (t : Fin cfg0.N) (b : Fin 128) :
    (iblk m c 2 t : Vec Ideal S128x1 .i32) (ix2 b 0) = labA m c b := by
  obtain ⟨-, -, -, -, e20, e21, -⟩ := idx_facts t
  unfold iblk
  rw [View.read_apply]
  show V m c main_v9 _ = V m c main_v9 (ix2 b 0)
  congr 1
  funext a
  apply Fin.ext
  match a with
  | ⟨0, _⟩ => show win0_2.index t (0 : Fin 2) * 128 + 1 * b.val = b.val; rw [e20]; omega
  | ⟨1, _⟩ => show win0_2.index t (1 : Fin 2) * 1 + 1 * 0 = 0; rw [e21]

/-- WHAT POINT `t` WRITES BACK to window 3's array is block `t` of `G3`. -/
theorem flushed3_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3]
  unfold out0_3
  rw [View.canon_unit_zero hz]
  simp only [View.ld_unit_zero (S := S2000x512) hz, View.ld_unit_zero (S := S128x512) hz, View.ld_unit_zero (S := S128x1) hz]
  obtain ⟨-, -, -, -, -, -, e30, e31, -, -, eg⟩ := idx_facts t
  funext y
  obtain ⟨cl, u, rfl⟩ : ∃ (cl : Fin 200) (u : Fin 1), y = ix2 cl u := ⟨y 0, y 1, eq_ix2 y⟩
  obtain rfl : u = 0 := Fin.ext (by omega)
  show k0_pay1 (k0_pay7 (grid0.coords t) (iblk m c 1 t) (iblk m c 0 t) (iblk m c 2 t)) (ix2 cl 0)
      = G3 m c (((cfg0.win 3).blk t).view.emb (ix2 cl 0))
  refine (Cert.KernelIdeal.Pay.psim_block (grid0.coords t) (pt t) eg (iblk m c 0 t) (iblk m c 1 t) (iblk m c 2 t)
    (xnA m c) (tabA m c) (labA m c) (blk0_apply m c t) (blk1_apply m c t) (blk2_apply m c t) cl).trans ?_
  refine congrArg (Spec.psim (xnA m c) (tabA m c) (labA m c)) (Fin.ext ?_)
  show 200 * t.val + cl.val = win0_3.index t (0 : Fin 2) * 200 + 1 * cl.val
  rw [e30]; omega

/-- An index of window 3's array is in point `t`'s block iff each coordinate is in the block's range on its axis. -/
theorem mem_blk3 (t : Fin cfg0.N) (i : S20000x1.Idx) :
    i ∈ ((cfg0.win 3).blk t).view.set ↔ ∀ a : Fin 2, win0_3.index t a * S200x1.size a ≤ (i a).val ∧ (i a).val < win0_3.index t a * S200x1.size a + S200x1.size a := by
  show i ∈ ((View.whole main_v10_0).slice (win0_3.rect t)).set ↔ _
  rw [View.set_slice_whole, Rect.mem_set_unit]
  exact Iff.rfl

/-- Row `r` of window 3's array is in the block of point `r / 200`: the hundred blocks of 200 rows tile it. -/
theorem cover3 (i : S20000x1.Idx) :
    ∃ t : Fin cfg0.N, (cfg0.win 3).flush t = true ∧ i ∈ ((cfg0.win 3).blk t).view.set := by
  have hN : cfg0.N = 100 := N_0
  have hi0 : (i 0).val < 20000 := (i 0).isLt
  have hi1 : (i 1).val < 1 := (i 1).isLt
  let t : Fin cfg0.N := ⟨(i 0).val / 200, by omega⟩
  obtain ⟨-, -, -, -, -, -, e30, e31, -⟩ := idx_facts t
  refine ⟨t, flush0_3 t, ?_⟩
  rw [mem_blk3]
  intro a
  have ht : t.val = (i 0).val / 200 := rfl
  match a with
  | ⟨0, _⟩ => show win0_3.index t (0 : Fin 2) * 200 ≤ (i 0).val ∧ (i 0).val < win0_3.index t (0 : Fin 2) * 200 + 200; rw [e30]; omega
  | ⟨1, _⟩ => show win0_3.index t (1 : Fin 2) * 1 ≤ (i 1).val ∧ (i 1).val < win0_3.index t (1 : Fin 2) * 1 + 1; rw [e31]; omega

theorem final3 (c : Dev nD) : (dats m 0 c).arrAt 3 cfg0.N = G3 m c :=
  (dats m 0 c).arrAt_eq_of_cover 3 (G3 m c) (fun t _ => flushed3_eq m c t) cover3

/-- WHAT POINT `t` WRITES BACK to window 4's array is block `t` of `G4`. -/
theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  unfold out0_4
  rw [View.canon_unit_zero hz]
  simp only [View.ld_unit_zero (S := S2000x512) hz, View.ld_unit_zero (S := S128x512) hz, View.ld_unit_zero (S := S128x1) hz]
  obtain ⟨-, -, -, -, -, -, -, -, e40, e41, eg⟩ := idx_facts t
  funext y
  obtain ⟨cl, u, rfl⟩ : ∃ (cl : Fin 200) (u : Fin 1), y = ix2 cl u := ⟨y 0, y 1, eq_ix2 y⟩
  obtain rfl : u = 0 := Fin.ext (by omega)
  show k0_pay2 (k0_pay4 (iblk m c 1 t) (iblk m c 0 t)) (k0_pay6 (grid0.coords t) (iblk m c 2 t)) (ix2 cl 0)
      = G4 m c (((cfg0.win 4).blk t).view.emb (ix2 cl 0))
  refine (Cert.KernelIdeal.Pay.nsim_block (grid0.coords t) (pt t) eg (iblk m c 0 t) (iblk m c 1 t) (iblk m c 2 t)
    (xnA m c) (tabA m c) (labA m c) (blk0_apply m c t) (blk1_apply m c t) (blk2_apply m c t) cl).trans ?_
  refine congrArg (Spec.nsim (xnA m c) (tabA m c) (labA m c)) (Fin.ext ?_)
  show 200 * t.val + cl.val = win0_4.index t (0 : Fin 2) * 200 + 1 * cl.val
  rw [e40]; omega

/-- An index of window 4's array is in point `t`'s block iff each coordinate is in the block's range on its axis. -/
theorem mem_blk4 (t : Fin cfg0.N) (i : S20000x1.Idx) :
    i ∈ ((cfg0.win 4).blk t).view.set ↔ ∀ a : Fin 2, win0_4.index t a * S200x1.size a ≤ (i a).val ∧ (i a).val < win0_4.index t a * S200x1.size a + S200x1.size a := by
  show i ∈ ((View.whole main_v10_1).slice (win0_4.rect t)).set ↔ _
  rw [View.set_slice_whole, Rect.mem_set_unit]
  exact Iff.rfl

/-- Row `r` of window 4's array is in the block of point `r / 200`: the hundred blocks of 200 rows tile it. -/
theorem cover4 (i : S20000x1.Idx) :
    ∃ t : Fin cfg0.N, (cfg0.win 4).flush t = true ∧ i ∈ ((cfg0.win 4).blk t).view.set := by
  have hN : cfg0.N = 100 := N_0
  have hi0 : (i 0).val < 20000 := (i 0).isLt
  have hi1 : (i 1).val < 1 := (i 1).isLt
  let t : Fin cfg0.N := ⟨(i 0).val / 200, by omega⟩
  obtain ⟨-, -, -, -, -, -, -, -, e40, e41, -⟩ := idx_facts t
  refine ⟨t, flush0_4 t, ?_⟩
  rw [mem_blk4]
  intro a
  have ht : t.val = (i 0).val / 200 := rfl
  match a with
  | ⟨0, _⟩ => show win0_4.index t (0 : Fin 2) * 200 ≤ (i 0).val ∧ (i 0).val < win0_4.index t (0 : Fin 2) * 200 + 200; rw [e40]; omega
  | ⟨1, _⟩ => show win0_4.index t (1 : Fin 2) * 1 ≤ (i 1).val ∧ (i 1).val < win0_4.index t (1 : Fin 2) * 1 + 1; rw [e41]; omega

theorem final4 (c : Dev nD) : (dats m 0 c).arrAt 4 cfg0.N = G4 m c :=
  (dats m 0 c).arrAt_eq_of_cover 4 (G4 m c) (fun t _ => flushed4_eq m c t) cover4

end Cert.KernelIdeal.Val

end
-- ==== Proof.RefValue.lean ====
/-
  The reference's three arrays, and its result, read against the specification.
-/
import proofs.«410691_j90933047591179_2_alg».proof.Proof.RefRead
import proofs.«410691_j90933047591179_2_alg».proof.Proof.Spec
import Idealize.ShloMosaic.Lib.ValueIdx
import Idealize.ShloMosaic.Lib.StableHlo.Predicate
import Idealize.ShloMosaic.PureOps.Ideal.Laws

noncomputable section

namespace Cert.RefSide

open Idealize.ShloMosaic Cert.ReferenceIdeal Cert.ReferenceIdeal.Gen Cert.ReferenceIdeal.ReadP ValueIdx

/-- The reference's normalised batch, by coordinates. -/
abbrev xnOf (X : (⟨S128x512, .f32⟩ : BufTy).Contents (Elt Ideal)) : Fin 128 → Fin 512 → EReal :=
  fun b k => val_main_v7 (F := Ideal) X (ix2 b k)
/-- The proxy table, by coordinates. -/
abbrev tabOf (P : (⟨S200000x512, .f32⟩ : BufTy).Contents (Elt Ideal)) : Fin 200000 → Fin 512 → EReal :=
  fun j k => P (ix2 j k)
/-- The labels, by coordinate. -/
abbrev labOf (T : (⟨S128, .i32⟩ : BufTy).Contents (Elt Ideal)) : Fin 128 → BitVec 32 := fun b => T (ix1 b)

/-! ## Small facts about the extended reals -/

/-- Off zero and for a positive real under the root, scaling by the reciprocal root is dividing by the root. -/
theorem scale_law {s : ℝ} (hs : 0 < s) (x : EReal) :
    x * Ideal.rsqrt (s : EReal) = Ideal.div x (Ideal.sqrt (s : EReal)) := by
  rw [Ideal.sqrt_coe, Ideal.rsqrt_coe, if_neg (not_lt.mpr hs.le), if_neg (not_lt.mpr hs.le), if_neg hs.ne',
    Ideal.div_coe (Real.sqrt_ne_zero'.mpr hs), one_div]

/-- The word under the root is a positive real. -/
theorem eps_pos : ∃ e : ℝ, 0 < e ∧ Spec.eps = (e : EReal) := by
  refine ⟨9223372 * ((2 : ℝ) ^ 63)⁻¹, by positivity, ?_⟩
  unfold Spec.eps
  simp [Ideal.ofBits, Ideal.ieee]

/-- A finite sum of coerced reals is the coerced sum. -/
theorem coe_sum {ι : Type} (s : Finset ι) (g : ι → ℝ) : ∑ k ∈ s, ((g k : ℝ) : EReal) = ((∑ k ∈ s, g k : ℝ) : EReal) := by
  classical
  induction s using Finset.induction_on with
  | empty => simp
  | insert a s ha ih => rw [Finset.sum_insert ha, Finset.sum_insert ha, ih, EReal.coe_add]

/-- The squared length of a row of reals is a nonnegative real. -/
theorem sum_sq_real (f : Fin 512 → EReal) (hf : ∀ k, ∃ r : ℝ, f k = (r : EReal)) :
    ∃ n : ℝ, 0 ≤ n ∧ ∑ k, f k * f k = (n : EReal) := by
  choose g hg using hf
  refine ⟨∑ k, g k * g k, Finset.sum_nonneg fun k _ => mul_self_nonneg _, ?_⟩
  rw [← coe_sum]
  exact Finset.sum_congr rfl fun k _ => by rw [hg k, EReal.coe_mul]

/-- The one-hot array is the indicator of the specification. -/
theorem hot_eq (T : (⟨S128, .i32⟩ : BufTy).Contents (Elt Ideal)) (b : Fin 128) (c : Fin 20000) :
    val_main_v18 (F := Ideal) T (ix2 b c) = Spec.hot (labOf T) b c := by
  rw [val_main_v18_apply, val_main_call0_v4_apply, val_main_call0_v2_apply, val_main_call0_v0_apply,
    val_main_call0_v3_apply, val_main_call0_v1_apply]
  have e1 : idx_main_call0_v0 (idx_main_call0_v2 (ix2 b c)) = ix1 b :=
    funext fun a => Fin.ext (by match a with | ⟨0, _⟩ => rfl)
  rw [e1]
  show FloatOps.uitofp (F := Ideal) .f32 (IntOp.cmpi .eq (T (ix1 b)) (BitVec.ofNat 32 c.val)) = if T (ix1 b) = BitVec.ofNat 32 c.val then 1 else 0
  by_cases h : T (ix1 b) = BitVec.ofNat 32 c.val
  · rw [if_pos h, StableHlo.Predicate.cmpi_eq_iff.mpr h]
    show (((1#1 : BitVec 1).toNat : ℝ) : EReal) = 1
    simp
  · rw [if_neg h, eq_zero_of_ne_one (fun h1 => h (StableHlo.Predicate.cmpi_eq_iff.mp h1))]
    show (((0#1 : BitVec 1).toNat : ℝ) : EReal) = 0
    simp

/-! ## The reference's stages at an index -/

/-- A proxy row divided by the root of its squared length plus the word is the specification's scaled row. -/
theorem unit_eq (P : (⟨S200000x512, .f32⟩ : BufTy).Contents (Elt Ideal))
    (hfin : ∀ (j : Fin 200000) (k : Fin 512), ∃ r : ℝ, P (ix2 j k) = (r : EReal)) (j : Fin 200000) (k : Fin 512) :
    val_main_v15 (F := Ideal) P (ix2 j k) = Spec.unit (tabOf P) j k := by
  rw [val_main_v15_apply, val_main_v14_apply, val_main_v13_apply, val_main_v12_apply, val_main_v11_apply]
  have e1 : idx_main_v13 (idx_main_v14 (ix2 j k)) = ix1 j :=
    funext fun a => Fin.ext (by match a with | ⟨0, _⟩ => rfl)
  rw [e1, val_main_v9_apply, val_main_v10_apply, val_main_cst_2_apply, val_main_cst_1_apply]
  have e2 : ∀ k' : Fin 512, val_main_v8 (F := Ideal) P (idx_main_v9 (ix1 j) k') = P (ix2 j k') * P (ix2 j k') := fun k' => by
    have e : idx_main_v9 (ix1 j) k' = ix2 j k' :=
      funext fun a => Fin.ext (by match a with | ⟨0, _⟩ => rfl | ⟨1, _⟩ => rfl)
    rw [e, val_main_v8_apply]; rfl
  rw [Finset.sum_congr rfl fun k' _ => e2 k']
  obtain ⟨n, hn0, hn⟩ := sum_sq_real (fun k' => P (ix2 j k')) (hfin j)
  obtain ⟨e, he0, he⟩ := eps_pos
  show Ideal.div (P (ix2 j k)) (Ideal.sqrt ((Ideal.ofBits .f32 0x00000000#32 + ∑ k' : Fin 512, P (ix2 j k') * P (ix2 j k')) + Spec.eps))
    = P (ix2 j k) * Ideal.rsqrt ((∑ k' : Fin 512, P (ix2 j k') * P (ix2 j k')) + Spec.eps)
  rw [Ideal.ofBits_zero_f32, zero_add, hn, he, ← EReal.coe_add]
  exact (scale_law (add_pos_of_nonneg_of_pos hn0 he0) _).symm

/-- The inner products of the normalised batch with the scaled proxies. -/
theorem cos_eq (X : (⟨S128x512, .f32⟩ : BufTy).Contents (Elt Ideal)) (P : (⟨S200000x512, .f32⟩ : BufTy).Contents (Elt Ideal))
    (hfin : ∀ (j : Fin 200000) (k : Fin 512), ∃ r : ℝ, P (ix2 j k) = (r : EReal)) (b : Fin 128) (j : Fin 200000) :
    val_main_v17 (F := Ideal) X P (ix2 b j) = Spec.cosine (xnOf X) (tabOf P) b j := by
  rw [val_main_v17_apply]
  unfold Spec.cosine
  refine Finset.sum_congr rfl fun k _ => ?_
  have el : lidx_main_v17 (ix2 b j) k = ix2 b k :=
    funext fun a => Fin.ext (by match a with | ⟨0, _⟩ => rfl | ⟨1, _⟩ => rfl)
  have er : idx_main_v16 (ridx_main_v17 (ix2 b j) k) = ix2 j k :=
    funext fun a => Fin.ext (by match a with | ⟨0, _⟩ => rfl | ⟨1, _⟩ => rfl)
  rw [el, val_main_v16_apply, er, unit_eq P hfin]

/-- The positive exponential at a batch row and a proxy row. -/
theorem posExp_eq (X : (⟨S128x512, .f32⟩ : BufTy).Contents (Elt Ideal)) (P : (⟨S200000x512, .f32⟩ : BufTy).Contents (Elt Ideal))
    (hfin : ∀ (j : Fin 200000) (k : Fin 512), ∃ r : ℝ, P (ix2 j k) = (r : EReal)) (b : Fin 128) (j : Fin 200000) :
    val_main_v25 (F := Ideal) X P (ix2 b j) = Spec.posExp (xnOf X) (tabOf P) b j := by
  rw [val_main_v25_apply, val_main_v24_apply, val_main_v23_apply, val_main_cst_5_apply, val_main_v22_apply,
    val_main_v21_apply, val_main_cst_4_apply, cos_eq X P hfin]
  rfl

/-- The negative exponential at a batch row and a proxy row. -/
theorem negExp_eq (X : (⟨S128x512, .f32⟩ : BufTy).Contents (Elt Ideal)) (P : (⟨S200000x512, .f32⟩ : BufTy).Contents (Elt Ideal))
    (hfin : ∀ (j : Fin 200000) (k : Fin 512), ∃ r : ℝ, P (ix2 j k) = (r : EReal)) (b : Fin 128) (j : Fin 200000) :
    val_main_v31 (F := Ideal) X P (ix2 b j) = Spec.negExp (xnOf X) (tabOf P) b j := by
  rw [val_main_v31_apply, val_main_v30_apply, val_main_v29_apply, val_main_cst_7_apply, val_main_v28_apply,
    val_main_v27_apply, val_main_cst_6_apply, cos_eq X P hfin]
  rfl

/-- Row-major: element (b, c, k) of the regrouped array is element (b, 10 c + k) of the flat one. -/
theorem regroup_idx (b : Fin 128) (c : Fin 20000) (k : Fin 10) :
    idx_main_v26 (ix3 b c k) = ix2 b (Spec.row c k) := by
  have hb := b.isLt; have hc := c.isLt; have hk := k.isLt
  refine funext fun a => Fin.ext ?_
  match a with
  | ⟨0, _⟩ => show ((b.val * 20000 + c.val) * 10 + k.val) / 200000 = b.val; omega
  | ⟨1, _⟩ => show ((b.val * 20000 + c.val) * 10 + k.val) % 200000 = 10 * c.val + k.val; omega

/-- The positive similarity of a batch row to a class. -/
theorem posSim_eq (X : (⟨S128x512, .f32⟩ : BufTy).Contents (Elt Ideal)) (P : (⟨S200000x512, .f32⟩ : BufTy).Contents (Elt Ideal))
    (hfin : ∀ (j : Fin 200000) (k : Fin 512), ∃ r : ℝ, P (ix2 j k) = (r : EReal)) (b : Fin 128) (c : Fin 20000) :
    val_main_v33 (F := Ideal) X P (ix2 b c) = Spec.posSim (xnOf X) (tabOf P) b c := by
  rw [val_main_v33_apply, val_main_cst_8_apply]
  show Ideal.ofBits .f32 0x00000000#32 + _ = _
  rw [Ideal.ofBits_zero_f32, zero_add]
  unfold Spec.posSim
  refine Finset.sum_congr rfl fun k _ => ?_
  have e : idx_main_v33 (ix2 b c) k = ix3 b c k :=
    funext fun a => Fin.ext (by match a with | ⟨0, _⟩ => rfl | ⟨1, _⟩ => rfl | ⟨2, _⟩ => rfl)
  rw [e, val_main_v26_apply, regroup_idx, posExp_eq X P hfin]

/-- The negative similarity of a batch row to a class. -/
theorem negSim_eq (X : (⟨S128x512, .f32⟩ : BufTy).Contents (Elt Ideal)) (P : (⟨S200000x512, .f32⟩ : BufTy).Contents (Elt Ideal))
    (hfin : ∀ (j : Fin 200000) (k : Fin 512), ∃ r : ℝ, P (ix2 j k) = (r : EReal)) (b : Fin 128) (c : Fin 20000) :
    val_main_v34 (F := Ideal) X P (ix2 b c) = Spec.negSim (xnOf X) (tabOf P) b c := by
  rw [val_main_v34_apply, val_main_cst_9_apply]
  show Ideal.ofBits .f32 0x00000000#32 + _ = _
  rw [Ideal.ofBits_zero_f32, zero_add]
  unfold Spec.negSim
  refine Finset.sum_congr rfl fun k _ => ?_
  have e : idx_main_v34 (ix2 b c) k = ix3 b c k :=
    funext fun a => Fin.ext (by match a with | ⟨0, _⟩ => rfl | ⟨1, _⟩ => rfl | ⟨2, _⟩ => rfl)
  rw [e, val_main_v32_apply]
  exact (congrArg (val_main_v31 (F := Ideal) X P) (regroup_idx b c k)).trans (negExp_eq X P hfin b (Spec.row c k))

theorem ref_count (T : (⟨S128, .i32⟩ : BufTy).Contents (Elt Ideal)) (c : Fin 20000) :
    val_main_v39 (F := Ideal) T (ix1 c) = Spec.count (labOf T) c := by
  rw [val_main_v39_apply, val_main_cst_12_apply]
  show Ideal.ofBits .f32 0x00000000#32 + _ = _
  rw [Ideal.ofBits_zero_f32, zero_add]
  unfold Spec.count
  refine Finset.sum_congr rfl fun b _ => ?_
  have e : idx_main_v39 (ix1 c) b = ix2 b c :=
    funext fun a => Fin.ext (by match a with | ⟨0, _⟩ => rfl | ⟨1, _⟩ => rfl)
  rw [e, hot_eq]

theorem ref_loss (X : (⟨S128x512, .f32⟩ : BufTy).Contents (Elt Ideal)) (T : (⟨S128, .i32⟩ : BufTy).Contents (Elt Ideal))
    (P : (⟨S200000x512, .f32⟩ : BufTy).Contents (Elt Ideal)) :
    val_main_v51 (F := Ideal) X T P
      = Spec.loss reducesTo_S20000_S_d0 h_S_ bcast_S_S20000 natLt_1_32
          (val_main_v36 (F := Ideal) X T P) (val_main_v38 (F := Ideal) X T P) (val_main_v39 (F := Ideal) T) := by
  unfold val_main_v51 val_main_v47 val_main_v50 val_main_v46 val_main_v49 val_main_v45 val_main_v48 val_main_v44 val_main_v43
    val_main_v42 val_main_v41 val_main_v40 val_main_cst_13 val_main_cst_14 val_main_cst_15 val_main_cst_16 val_main_c Spec.loss
  rfl

theorem ref_psim (X : (⟨S128x512, .f32⟩ : BufTy).Contents (Elt Ideal)) (T : (⟨S128, .i32⟩ : BufTy).Contents (Elt Ideal))
    (P : (⟨S200000x512, .f32⟩ : BufTy).Contents (Elt Ideal))
    (hfin : ∀ (j : Fin 200000) (k : Fin 512), ∃ r : ℝ, P (ix2 j k) = (r : EReal)) (c : Fin 20000) :
    val_main_v36 (F := Ideal) X T P (ix1 c) = Spec.psim (xnOf X) (tabOf P) (labOf T) c := by
  rw [val_main_v36_apply, val_main_cst_10_apply]
  show Ideal.ofBits .f32 0x00000000#32 + _ = _
  rw [Ideal.ofBits_zero_f32, zero_add]
  unfold Spec.psim
  refine Finset.sum_congr rfl fun b _ => ?_
  have e : idx_main_v36 (ix1 c) b = ix2 b c :=
    funext fun a => Fin.ext (by match a with | ⟨0, _⟩ => rfl | ⟨1, _⟩ => rfl)
  rw [e, val_main_v35_apply, hot_eq, posSim_eq X P hfin]
  rfl

theorem ref_nsim (X : (⟨S128x512, .f32⟩ : BufTy).Contents (Elt Ideal)) (T : (⟨S128, .i32⟩ : BufTy).Contents (Elt Ideal))
    (P : (⟨S200000x512, .f32⟩ : BufTy).Contents (Elt Ideal))
    (hfin : ∀ (j : Fin 200000) (k : Fin 512), ∃ r : ℝ, P (ix2 j k) = (r : EReal)) (c : Fin 20000) :
    val_main_v38 (F := Ideal) X T P (ix1 c) = Spec.nsim (xnOf X) (tabOf P) (labOf T) c := by
  rw [val_main_v38_apply, val_main_cst_11_apply]
  show Ideal.ofBits .f32 0x00000000#32 + _ = _
  rw [Ideal.ofBits_zero_f32, zero_add]
  unfold Spec.nsim
  refine Finset.sum_congr rfl fun b _ => ?_
  have e : idx_main_v38 (ix1 c) b = ix2 b c :=
    funext fun a => Fin.ext (by match a with | ⟨0, _⟩ => rfl | ⟨1, _⟩ => rfl)
  rw [e, val_main_v37_apply, val_main_v20_apply, val_main_v19_apply, val_main_cst_3_apply, hot_eq, negSim_eq X P hfin]
  rfl

end Cert.RefSide

end
-- ==== Proof.Prefix.lean ====
/-
  What the region finds in its three input arrays, in the reference's terms: the batch normalised by the very
  operations the reference applies (the change of float format is the identity on the extended reals), the proxy
  table as launched, the labels as a column.
-/
import proofs.«410691_j90933047591179_2_alg».proof.Proof.Blocks
import proofs.«410691_j90933047591179_2_alg».proof.Proof.RefValue
import Idealize.ShloMosaic.Lib.StableHlo.Run
import Idealize.ShloMosaic.Lib.Pipeline.Value
import Idealize.ShloMosaic.Lib.ValueIdx

noncomputable section

namespace Cert.KernelIdeal.Val

open Idealize.ShloMosaic Idealize.ShloMosaic.TcCoe Idealize.SL.Sem Idealize.ShloMosaic.StableHlo ValueIdx
open Cert.KernelIdeal Cert.KernelIdeal.Gen Cert.KernelIdeal.GenP

variable (m : (ℓ : Loc nD τ sig) → Buf (Elt Ideal) ℓ)

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem xn_eq (c : Dev nD) : xnA m c = Cert.RefSide.xnOf (m ((c : Thread nD τ).loc main_arg0)) := by
  have e : @Eq (FVec Ideal S128x512 .bf16) (V m c main_v8)
      (truncf (F := Ideal) .bf16 (Cert.ReferenceIdeal.ReadP.val_main_v7 (F := Ideal) (m ((c : Thread nD τ).loc main_arg0))) bitsLt_bf16_f32) := by
    dsimp only [V, V0]
    simp only [hostOps0, List.flatten_cons, List.flatten_nil, List.append_nil, List.cons_append, List.nil_append]
    after_results
    rfl
  funext b k
  exact congrFun e (ix2 b k)

theorem tab_eq (c : Dev nD) : tabA m c = Cert.RefSide.tabOf (m ((c : Thread nD τ).loc main_arg2)) := by
  funext j k
  exact congrFun (V_main_arg2 m c) (ix2 j k)

theorem lab_eq (c : Dev nD) : labA m c = Cert.RefSide.labOf (m ((c : Thread nD τ).loc main_arg1)) := by
  have e : @Eq (IVec S128x1 32) (V m c main_v9)
      (shapeCast S128x1 (m ((c : Thread nD τ).loc main_arg1)) shapeCasts_S128_S128x1) := by
    dsimp only [V, V0]
    simp only [hostOps0, List.flatten_cons, List.flatten_nil, List.append_nil, List.cons_append, List.nil_append]
    after_results
    rfl
  funext b
  exact (congrFun e (ix2 b 0)).trans (shapeCast_a_a1_apply _ _ b 0)

end Cert.KernelIdeal.Val

end
-- ==== Proof.KernelValue.lean ====
/-
  The kernel program's result is the reference's function of the launched arguments: the two output arrays are the
  reference's `psim` / `nsim` arrays (finite proxies: the reciprocal root is the quotient by the root), the class
  counts are the reference's column sums of the indicator (non-negative labels: nothing is moved up by 20000),
  and both programs end in the same operations.
-/
import proofs.«410691_j90933047591179_2_alg».proof.Proof.Tail
import proofs.«410691_j90933047591179_2_alg».proof.Proof.Blocks
import proofs.«410691_j90933047591179_2_alg».proof.Proof.Prefix
import proofs.«410691_j90933047591179_2_alg».proof.Proof.Counts
import proofs.«410691_j90933047591179_2_alg».proof.Proof.RefValue
import Idealize.ShloMosaic.Lib.Pipeline.Value
import Idealize.ShloMosaic.Lib.ValueIdx
import Idealize.ShloMosaic.Lib.ValueLayout

noncomputable section

namespace Cert.KernelIdeal.Val

open Idealize.ShloMosaic Idealize.ShloMosaic.TcCoe Idealize.SL.Sem ValueIdx
open Cert.KernelIdeal Cert.KernelIdeal.Gen Cert.KernelIdeal.GenP

variable (m : (ℓ : Loc nD τ sig) → Buf (Elt Ideal) ℓ)

/-- An `[a, 1]` array cast to `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i 0) :=
  shapeCast_apply x h _ _ (by
    rw [Shape.rowMajor_val_two, Shape.rowMajor_val_one]
    show i.val * 1 + 0 = i.val
    omega)

theorem result_eq (c : Dev nD)
    (hfin : ∀ (j : Fin 200000) (k : Fin 512), ∃ r : ℝ, m ((c : Thread nD τ).loc main_arg2) (ix2 j k) = (r : EReal))
    (hT : ∀ b : Fin 128, 0 ≤ (m ((c : Thread nD τ).loc main_arg1) (ix1 b)).toInt) :
    Pipeline.afterTail₀ cfgs (dats m) 0 (V0 m) [hostOps1] c main_v34
      = Cert.ReferenceIdeal.ReadP.val_main_v51 (F := Ideal) (m ((c : Thread nD τ).loc main_arg0))
          (m ((c : Thread nD τ).loc main_arg1)) (m ((c : Thread nD τ).loc main_arg2)) := by
  have e3 : WA m c main_v10_0 = (dats m 0 c).arrAt 3 cfg0.N :=
    Pipeline.withArrays_arr spec0 launch0.win.arr_inj c _ _ 3
  have e4 : WA m c main_v10_1 = (dats m 0 c).arrAt 4 cfg0.N :=
    Pipeline.withArrays_arr spec0 launch0.win.arr_inj c _ _ 4
  have e2 : WA m c main_v9 = V m c main_v9 :=
    (Pipeline.withArrays_arr spec0 launch0.win.arr_inj c _ _ 2).trans
      (((dats m 0 c).arrAt_in 2 rfl _).trans (A_eq m c 2))
  -- the positive array
  have hp : shapeCast S20000 (WA m c main_v10_0) shapeCasts_S20000x1_S20000
      = Cert.ReferenceIdeal.ReadP.val_main_v36 (F := Ideal) (m ((c : Thread nD τ).loc main_arg0))
          (m ((c : Thread nD τ).loc main_arg1)) (m ((c : Thread nD τ).loc main_arg2)) := by
    funext i
    obtain ⟨cc, rfl⟩ : ∃ cc : Fin 20000, i = ix1 cc := ⟨i 0, eq_ix1 i⟩
    refine (shapeCast_a1_a_apply _ _ cc).trans ?_
    rw [e3, final3]
    show Spec.psim (xnA m c) (tabA m c) (labA m c) cc = _
    rw [xn_eq, tab_eq, lab_eq]
    exact (Cert.RefSide.ref_psim _ _ _ hfin cc).symm
  -- the negative array
  have hn : shapeCast S20000 (WA m c main_v10_1) shapeCasts_S20000x1_S20000
      = Cert.ReferenceIdeal.ReadP.val_main_v38 (F := Ideal) (m ((c : Thread nD τ).loc main_arg0))
          (m ((c : Thread nD τ).loc main_arg1)) (m ((c : Thread nD τ).loc main_arg2)) := by
    funext i
    obtain ⟨cc, rfl⟩ : ∃ cc : Fin 20000, i = ix1 cc := ⟨i 0, eq_ix1 i⟩
    refine (shapeCast_a1_a_apply _ _ cc).trans ?_
    rw [e4, final4]
    show Spec.nsim (xnA m c) (tabA m c) (labA m c) cc = _
    rw [xn_eq, tab_eq, lab_eq]
    exact (Cert.RefSide.ref_nsim _ _ _ hfin cc).symm
  -- the labels the counts are taken from are the launched labels
  have hl : ∀ b : Fin 128, shapeCast S128 (WA m c main_v9) shapeCasts_S128x1_S128 (ix1 b)
      = m ((c : Thread nD τ).loc main_arg1) (ix1 b) := fun b =>
    (shapeCast_a1_a_apply _ _ b).trans ((congrFun e2 (ix2 b 0)).trans (congrFun (lab_eq m c) b))
  have hc : Counts.cntK (shapeCast S128 (WA m c main_v9) shapeCasts_S128x1_S128)
      = Cert.ReferenceIdeal.ReadP.val_main_v39 (F := Ideal) (m ((c : Thread nD τ).loc main_arg1)) := by
    funext i
    obtain ⟨cc, rfl⟩ : ∃ cc : Fin 20000, i = ix1 cc := ⟨i 0, eq_ix1 i⟩
    rw [Counts.cntK_apply _ (fun b => by rw [hl b]; exact hT b) cc, Cert.RefSide.ref_count]
    exact congrArg (fun f => Spec.count f cc) (funext hl)
  refine (tail_raw m c).trans ?_
  refine Eq.trans ?_ (Cert.RefSide.ref_loss _ _ _).symm
  rw [hp, hn, hc]

end Cert.KernelIdeal.Val

end
-- ==== Proof.lean ====
/-
  The proxy-anchor loss, streamed block by block, against its whole-array form.

  Both programs normalise the batch of 128 embeddings by the same host operations, so that part is one
  function on both sides. The kernel walks the 200000 proxies in 100 blocks of 2000 rows — 200 classes of ten
  proxies each —, scales every row by the reciprocal root of its squared length plus a small constant, takes the
  inner products with the batch, and from `exp (-α (cos - δ))` and `exp (α (cos + δ))` summed over a class's ten
  proxies forms, per class, the sum over the rows labelled with the class and the sum over the other rows; the
  reference does the same on whole arrays, dividing by the root where the kernel multiplies by the reciprocal
  root. For a row of real numbers the sum of squares plus the constant is a positive real, where the two
  scalings agree; this is the one place the finiteness of the proxies is used. Everything else is the same
  sums over the same index sets, block `t` covering classes `200 t … 200 t + 199`.

  The number of classes present divides the positive part of the loss. The reference counts the non-zero column
  sums of the label indicator; the kernel's program scatters ones, adding, at the labels, a negative label first
  moved up by 20000. For non-negative labels nothing is moved, a label of 20000 or more falls outside the array
  as it matches no class, and the two counts agree; the precondition says every label is non-negative. (At a
  label in [-20000, -1] the two programs count differently and their results differ.)

  Both programs end in the same host operations on the two similarity arrays and the counts; that end is kept
  as one function and never opened.

  The frame of each kernel program says that every weakly fair execution ends, without a fault, with the three
  argument arrays as launched; the reference, which launches no kernel, has its frame from its run with the
  result dropped.
-/
import proofs.«410691_j90933047591179_2_alg».proof.Defs
import proofs.«410691_j90933047591179_2_alg».proof.Proof.Gen.Kernel
import proofs.«410691_j90933047591179_2_alg».proof.Proof.Gen.KernelIdeal
import proofs.«410691_j90933047591179_2_alg».proof.Proof.Gen.ReferenceIdeal
import proofs.«410691_j90933047591179_2_alg».proof.Proof.Gen.Pre_finite_inputs
import proofs.«410691_j90933047591179_2_alg».proof.Proof.KernelFrame
import proofs.«410691_j90933047591179_2_alg».proof.Proof.KernelIdealFrame
import proofs.«410691_j90933047591179_2_alg».proof.Proof.RefRun
import proofs.«410691_j90933047591179_2_alg».proof.Proof.RefRead
import proofs.«410691_j90933047591179_2_alg».proof.Proof.PreDecode
import proofs.«410691_j90933047591179_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

open Cert.KernelIdeal Cert.KernelIdeal.Gen Cert.KernelIdeal.GenP in
/-- Both runs end with the reference's function of the launched arguments in the result buffer: the kernel's by
    `Val.result_eq` under what the precondition says of the proxies and the labels, the reference's by its run read
    back, its arguments being the kernel's. -/
theorem algebraic : Cert.algebraic_KernelIdeal_ReferenceIdeal := by
  intro m ρ m' ρ' hpre hagree
  refine ⟨fun c => Cert.ReferenceIdeal.ReadP.val_main_v51 (F := Ideal) (m ((c.tc : Thread nD τ).loc main_arg0))
      (m ((c.tc : Thread nD τ).loc main_arg1)) (m ((c.tc : Thread nD τ).loc main_arg2)), ?_, ?_⟩
  · refine (θ_run Cert.KernelIdeal.defs _ _).mono (fun r h c => ?_) (run_main m ρ)
    obtain ⟨hP, hT⟩ := Cert.PreDecode.decode _ _ _ (hpre c)
    refine ⟨((h c).2 main_v34 (Pipeline.mem_restRefs_of main_v34 (by decide) (by decide))).trans
        (Cert.KernelIdeal.Val.result_eq m c hP hT), ?_, ?_, ?_⟩
    · exact ((h c).2 main_arg0 (Pipeline.mem_restRefs_of main_arg0 (by decide) (by decide))).trans (W_main_arg0 m (dats m) c)
    · exact ((h c).2 main_arg1 (Pipeline.mem_restRefs_of main_arg1 (by decide) (by decide))).trans (W_main_arg1 m (dats m) c)
    · exact ((h c).1 1).trans (((dats m 0 c).arrAt_in 1 rfl _).trans ((A_eq m c 1).trans (V_main_arg2 m c)))
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v51_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
